-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S150000x128 : Shape := ⟨2, ![150000, 128]⟩
abbrev S150000x2 : Shape := ⟨2, ![150000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S150000x128 : S_.BroadcastsInDim S150000x128 (![] : Fin 0 → Fin S150000x128.rank)
  reducesTo_S150000x128_S_d0_1 : S150000x128.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x1152 : S_.BroadcastsInDim S512x1152 (![] : Fin 0 → Fin S512x1152.rank)
  reducesTo_S512x1152_S_d0_1 : S512x1152.ReducesTo [0, 1] S_
  bcast_S_S1152 : S_.BroadcastsInDim S1152 (![] : Fin 0 → Fin S1152.rank)
  reducesTo_S1152_S_d0 : S1152.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S150000x2 : S_.BroadcastsInDim S150000x2 (![] : Fin 0 → Fin S150000x2.rank)
  reducesTo_S150000x2_S_d0_1 : S150000x2.ReducesTo [0, 1] S_

variable [Facts]

def fn_part3 {F : FTy → Type} [FloatOps F] (main_arg2 : IVec S150000x2 32) (main_v48 : IVec S_ 1) (main_v50 : IVec S150000x2 1) : IVec S_ 1 :=
  let main_c_19 : IVec S_ 32 := constantI S_ 32 50000#32
  let main_v51 : IVec S150000x2 32 := broadcastInDim S150000x2 ![] bcast_S_S150000x2 main_c_19
  let main_v52 : IVec S150000x2 1 := cmpi .slt main_arg2 main_v51
  let main_v53 : IVec S150000x2 1 := andi main_v50 main_v52
  let main_c_20 : IVec S_ 1 := constantI S_ 1 1#1
  let main_v54 : IVec S_ 1 := (fun x v => Host.reduce IntOp.andi x v reducesTo_S150000x2_S_d0_1 h_S_) main_v53 main_c_20
  let main_v55 : IVec S_ 1 := andi main_v48 main_v54
  main_v55

def fn_part2 {F : FTy → Type} [FloatOps F] (main_arg2 : IVec S150000x2 32) (main_arg8 : FVec F S512 .f32) (main_arg9 : FVec F S512x128 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S150000x2 32 := broadcastInDim S150000x2 ![] bcast_S_S150000x2 main_c_18
  let main_v50 : IVec S150000x2 1 := cmpi .sge main_arg2 main_v49
  fn_part3 (F := F) main_arg2 main_v48 main_v50

def fn_part1 {F : FTy → Type} [FloatOps F] (main_arg2 : IVec S150000x2 32) (main_arg5 : FVec F S512x1152 .f32) (main_arg6 : FVec F S1152 .f32) (main_arg7 : FVec F S512x512 .f32) (main_arg8 : FVec F S512 .f32) (main_arg9 : FVec F S512x128 .f32) (main_arg10 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1152 .f32 := Host.absf main_arg5
  let main_cst_6 : FVec F S_ .f32 := constant S_ .f32 0x7F800000#32
  let main_v20 : FVec F S512x1152 .f32 := broadcastInDim S512x1152 ![] bcast_S_S512x1152 main_cst_6
  let main_v21 : IVec S512x1152 1 := cmpf .olt main_v19 main_v20
  let main_c_7 : IVec S_ 1 := constantI S_ 1 1#1
  let main_v22 : IVec S_ 1 := (fun x v => Host.reduce IntOp.andi x v reducesTo_S512x1152_S_d0_1 h_S_) main_v21 main_c_7
  let main_v23 : IVec S_ 1 := andi main_v18 main_v22
  let main_v24 : FVec F S1152 .f32 := Host.absf main_arg6
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x128 .f32) (main_arg1 : FVec F S150000x128 .f32) (main_arg2 : IVec S150000x2 32) (main_arg3 : FVec F S384x512 .f32) (main_arg4 : FVec F S512 .f32) (main_arg5 : FVec F S512x1152 .f32) (main_arg6 : FVec F S1152 .f32) (main_arg7 : FVec F S512x512 .f32) (main_arg8 : FVec F S512 .f32) (main_arg9 : FVec F S512x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S150000x128 .f32 := Host.absf main_arg1
  let main_cst_0 : FVec F S_ .f32 := constant S_ .f32 0x7F800000#32
  let main_v5 : FVec F S150000x128 .f32 := broadcastInDim S150000x128 ![] bcast_S_S150000x128 main_cst_0
  let main_v6 : IVec S150000x128 1 := cmpf .olt main_v4 main_v5
  let main_c_1 : IVec S_ 1 := constantI S_ 1 1#1
  let main_v7 : IVec S_ 1 := (fun x v => Host.reduce IntOp.andi x v reducesTo_S150000x128_S_d0_1 h_S_) main_v6 main_c_1
  let main_v8 : IVec S_ 1 := andi main_v3 main_v7
  let main_v9 : FVec F S384x512 .f32 := Host.absf main_arg3
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_v13 main_v16
-- ==== Kernel.lean ====
abbrev S50000x128 : Shape := ⟨2, ![50000, 128]⟩
abbrev S150000x128 : Shape := ⟨2, ![150000, 128]⟩
abbrev S150000x2 : Shape := ⟨2, ![150000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S150000x1 : Shape := ⟨2, ![150000, 1]⟩
abbrev S150000 : Shape := ⟨1, ![150000]⟩
abbrev S_ : Shape := ⟨0, ![]⟩
abbrev S1 : Shape := ⟨1, ![1]⟩
abbrev S1x1 : Shape := ⟨2, ![1, 1]⟩
abbrev S150000x512 : Shape := ⟨2, ![150000, 512]⟩
abbrev S1200x128 : Shape := ⟨2, ![1200, 128]⟩
abbrev S1200x512 : Shape := ⟨2, ![1200, 512]⟩
abbrev S1200x384 : Shape := ⟨2, ![1200, 384]⟩
abbrev S1x512 : Shape := ⟨2, ![1, 512]⟩
abbrev S1200x1152 : Shape := ⟨2, ![1200, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S2000x512 : Shape := ⟨2, ![2000, 512]⟩
abbrev S2000x128 : Shape := ⟨2, ![2000, 128]⟩
abbrev S1x128 : Shape := ⟨2, ![1, 128]⟩

abbrev nBuf : Space → Nat
  | .hbm => 91
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S150000x128, .f32⟩
  | .hbm, ⟨2, _⟩ => ⟨S150000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S150000x1, .i32⟩
  | .hbm, ⟨12, _⟩ => ⟨S150000, .i32⟩
  | .hbm, ⟨13, _⟩ => ⟨S150000x1, .i32⟩
  | .hbm, ⟨14, _⟩ => ⟨S150000, .i32⟩
  | .hbm, ⟨15, _⟩ => ⟨S_, .i32⟩
  | .hbm, ⟨16, _⟩ => ⟨S150000, .i32⟩
  | .hbm, ⟨17, _⟩ => ⟨S150000, .i1⟩
  | .hbm, ⟨18, _⟩ => ⟨S_, .i32⟩
  | .hbm, ⟨19, _⟩ => ⟨S150000, .i32⟩
  | .hbm, ⟨20, _⟩ => ⟨S150000, .i32⟩
  | .hbm, ⟨21, _⟩ => ⟨S150000, .i32⟩
  | .hbm, ⟨22, _⟩ => ⟨S150000x1, .i32⟩
  | .hbm, ⟨23, _⟩ => ⟨S1, .i32⟩
  | .hbm, ⟨24, _⟩ => ⟨S_, .i32⟩
  | .hbm, ⟨25, _⟩ => ⟨S150000x1, .i32⟩
  | .hbm, ⟨26, _⟩ => ⟨S150000x1, .i1⟩
  | .hbm, ⟨27, _⟩ => ⟨S1x1, .i32⟩
  | .hbm, ⟨28, _⟩ => ⟨S150000x1, .i32⟩
  | .hbm, ⟨29, _⟩ => ⟨S150000x1, .i1⟩
  | .hbm, ⟨30, _⟩ => ⟨S150000x1, .i1⟩
  | .hbm, ⟨31, _⟩ => ⟨S_, .i1⟩
  | .hbm, ⟨32, _⟩ => ⟨S150000, .i1⟩
  | .hbm, ⟨33, _⟩ => ⟨S150000x128, .f32⟩
  | .hbm, ⟨34, _⟩ => ⟨S150000x128, .i1⟩
  | .hbm, ⟨35, _⟩ => ⟨S_, .f32⟩
  | .hbm, ⟨36, _⟩ => ⟨S150000x128, .f32⟩
  | .hbm, ⟨37, _⟩ => ⟨S150000x128, .f32⟩
  | .hbm, ⟨38, _⟩ => ⟨S_, .i32⟩
  | .hbm, ⟨39, _⟩ => ⟨S150000, .i32⟩
  | .hbm, ⟨40, _⟩ => ⟨S150000, .i1⟩
  | .hbm, ⟨41, _⟩ => ⟨S_, .i32⟩
  | .hbm, ⟨42, _⟩ => ⟨S150000, .i32⟩
  | .hbm, ⟨43, _⟩ => ⟨S150000, .i32⟩
  | .hbm, ⟨44, _⟩ => ⟨S150000, .i32⟩
  | .hbm, ⟨45, _⟩ => ⟨S150000x1, .i32⟩
  | .hbm, ⟨46, _⟩ => ⟨S1, .i32⟩
  | .hbm, ⟨47, _⟩ => ⟨S_, .i32⟩
  | .hbm, ⟨48, _⟩ => ⟨S150000x1, .i32⟩
  | .hbm, ⟨49, _⟩ => ⟨S150000x1, .i1⟩
  | .hbm, ⟨50, _⟩ => ⟨S1x1, .i32⟩
  | .hbm, ⟨51, _⟩ => ⟨S150000x1, .i32⟩
  | .hbm, ⟨52, _⟩ => ⟨S150000x1, .i1⟩
  | .hbm, ⟨53, _⟩ => ⟨S150000x1, .i1⟩
  | .hbm, ⟨54, _⟩ => ⟨S_, .i1⟩
  | .hbm, ⟨55, _⟩ => ⟨S150000, .i1⟩
  | .hbm, ⟨56, _⟩ => ⟨S150000x128, .f32⟩
  | .hbm, ⟨57, _⟩ => ⟨S150000x128, .i1⟩
  | .hbm, ⟨58, _⟩ => ⟨S_, .f32⟩
  | .hbm, ⟨59, _⟩ => ⟨S150000x128, .f32⟩
  | .hbm, ⟨60, _⟩ => ⟨S150000x128, .f32⟩
  | .hbm, ⟨61, _⟩ => ⟨S150000x512, .f32⟩
  | .hbm, ⟨62, _⟩ => ⟨S150000x128, .f32⟩
  | .hbm, ⟨63, _⟩ => ⟨S150000x512, .f32⟩
  | .hbm, ⟨64, _⟩ => ⟨S_, .f32⟩
  | .hbm, ⟨65, _⟩ => ⟨S50000x512, .f32⟩
  | .hbm, ⟨66, _⟩ => ⟨S150000x1, .i32⟩
  | .hbm, ⟨67, _⟩ => ⟨S50000x512, .f32⟩
  | .hbm, ⟨68, _⟩ => ⟨S_, .f32⟩
  | .hbm, ⟨69, _⟩ => ⟨S50000x512, .f32⟩
  | .hbm, ⟨70, _⟩ => ⟨S150000x1, .i32⟩
  | .hbm, ⟨71, _⟩ => ⟨S50000x512, .f32⟩
  | .hbm, ⟨72, _⟩ => ⟨S50000x512, .f32⟩
  | .hbm, ⟨73, _⟩ => ⟨S_, .f32⟩
  | .hbm, ⟨74, _⟩ => ⟨S150000, .f32⟩
  | .hbm, ⟨75, _⟩ => ⟨S_, .f32⟩
  | .hbm, ⟨76, _⟩ => ⟨S50000, .f32⟩
  | .hbm, ⟨77, _⟩ => ⟨S150000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S150000x1, .i32⟩
  | .hbm, ⟨82, _⟩ => ⟨S50000, .f32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x512, .f32⟩
  | .hbm, ⟨89, _⟩ => ⟨S50000x512, .f32⟩
  | .hbm, ⟨90, _⟩ => ⟨S50000x128, .f32⟩
  | .local _ .vmem, ⟨0, _⟩ => ⟨S1200x128, .f32⟩
  | .local _ .vmem, ⟨1, _⟩ => ⟨S1200x128, .f32⟩
  | .local _ .vmem, ⟨2, _⟩ => ⟨S1200x128, .f32⟩
  | .local _ .vmem, ⟨3, _⟩ => ⟨S1200x128, .f32⟩
  | .local _ .vmem, ⟨4, _⟩ => ⟨S1200x128, .f32⟩
  | .local _ .vmem, ⟨5, _⟩ => ⟨S1200x128, .f32⟩
  | .local _ .vmem, ⟨6, _⟩ => ⟨S384x512, .f32⟩
  | .local _ .vmem, ⟨7, _⟩ => ⟨S512, .f32⟩
  | .local _ .vmem, ⟨8, _⟩ => ⟨S512x1152, .f32⟩
  | .local _ .vmem, ⟨9, _⟩ => ⟨S1152, .f32⟩
  | .local _ .vmem, ⟨10, _⟩ => ⟨S1200x512, .f32⟩
  | .local _ .vmem, ⟨11, _⟩ => ⟨S1200x512, .f32⟩
  | .local _ .vmem, ⟨12, _⟩ => ⟨S1200x128, .f32⟩
  | .local _ .vmem, ⟨13, _⟩ => ⟨S1200x128, .f32⟩
  | .local _ .vmem, ⟨14, _⟩ => ⟨S1200x512, .f32⟩
  | .local _ .vmem, ⟨15, _⟩ => ⟨S1200x512, .f32⟩
  | .local _ .vmem, ⟨16, _⟩ => ⟨S2000x512, .f32⟩
  | .local _ .vmem, ⟨17, _⟩ => ⟨S2000x512, .f32⟩
  | .local _ .vmem, ⟨18, _⟩ => ⟨S512x512, .f32⟩
  | .local _ .vmem, ⟨19, _⟩ => ⟨S512, .f32⟩
  | .local _ .vmem, ⟨20, _⟩ => ⟨S512x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6_0 : Ref sig .tc := ⟨.hbm, 61, rfl⟩
abbrev main_v6_1 : Ref sig .tc := ⟨.hbm, 62, rfl⟩
abbrev main_v6_2 : Ref sig .tc := ⟨.hbm, 63, rfl⟩
abbrev main_cst : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_cst_0 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_cst_1 : Ref sig .tc := ⟨.hbm, 73, rfl⟩
abbrev main_v14 : Ref sig .tc := ⟨.hbm, 74, rfl⟩
abbrev main_cst_2 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_cst_3 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst_4 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1200x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1200x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S150000x2_S150000x1_0_0 : S150000x2.Slices ![0, 0] S150000x1
  shapeCasts_S150000x1_S150000 : S150000x1.ShapeCasts S150000
  slices_S150000x2_S150000x1_0_1 : S150000x2.Slices ![0, 1] S150000x1
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  reducesTo_S150000x1_S150000_d1 : S150000x1.ReducesTo [1] S150000
  h_S_ : 0 < S_.numel
  bcast_S150000_S150000x128_0 : S150000.BroadcastsInDim S150000x128 (![0] : Fin 1 → Fin S150000x128.rank)
  bcast_S_S150000x128 : S_.BroadcastsInDim S150000x128 (![] : Fin 0 → Fin S150000x128.rank)
  inb_S1200x128_S1200x128_0_0 : ∀ a, (![0, 0] : Fin 2 → Nat) a + S1200x128.size a ≤ S1200x128.size a
  h_S1200x128 : 0 < S1200x128.numel
  shapeCasts_S1200x128_S1200x128 : S1200x128.ShapeCasts S1200x128
  concatenates_S1200x128_S1200x128_S1200x128_S1200x384_d1 : Shape.Concatenates [S1200x128, S1200x128, S1200x128] S1200x384 1
  bitsLt_bf16_f32 : FTy.bits .bf16 < FTy.bits .f32
  inb_S384x512_S384x512_0_0 : ∀ a, (![0, 0] : Fin 2 → Nat) a + S384x512.size a ≤ S384x512.size a
  h_S384x512 : 0 < S384x512.numel
  inb_S512_S512_0 : ∀ a, (![0] : Fin 1 → Nat) a + S512.size a ≤ S512.size a
  h_S512 : 0 < S512.numel
  shapeCasts_S512_S1x512 : S512.ShapeCasts S1x512
  broadcasts_S1x512_S1200x512 : S1x512.Broadcasts S1200x512
  inb_S512x1152_S512x1152_0_0 : ∀ a, (![0, 0] : Fin 2 → Nat) a + S512x1152.size a ≤ S512x1152.size a
  h_S512x1152 : 0 < S512x1152.numel
  inb_S1152_S1152_0 : ∀ a, (![0] : Fin 1 → Nat) a + S1152.size a ≤ S1152.size a
  h_S1152 : 0 < S1152.numel
  shapeCasts_S1152_S1x1152 : S1152.ShapeCasts S1x1152
  broadcasts_S1x1152_S1200x1152 : S1x1152.Broadcasts S1200x1152
  slices_S1200x1152_o0_0_S1200x512 : S1200x1152.Slices ![0, 0] S1200x512
  inb_S1200x512_S1200x512_0_0 : ∀ a, (![0, 0] : Fin 2 → Nat) a + S1200x512.size a ≤ S1200x512.size a
  h_S1200x512 : 0 < S1200x512.numel
  slices_S1200x1152_o0_512_S1200x128 : S1200x1152.Slices ![0, 512] S1200x128
  slices_S1200x1152_o0_640_S1200x512 : S1200x1152.Slices ![0, 640] S1200x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  broadcasts_S1x512_S2000x512 : S1x512.Broadcasts S2000x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x128_S150000x1_S150000x128_1_0_n_n_0_1_1128_wf : GatherDims.WF S50000x128 S150000x1 S150000x128 [1] [0] [] [0] [] 1 ![1, 128]
  dot_S1200x384_S384x512_S1200x512_1_0_0_1_n_n_wf : DotDims.WF S1200x384 S384x512 S1200x512 [1] [0] [0] [1] [] []
  dot_S1200x512_S512x1152_S1200x1152_1_0_0_1_n_n_wf : DotDims.WF S1200x512 S512x1152 S1200x1152 [1] [0] [0] [1] [] []
  scatter_S50000x512_S150000x1_S150000x512_1_0_0_1_wf : ScatterDims.WF S50000x512 S150000x1 S150000x512 [1] [0] [0] 1
  scatter_S50000_S150000x1_S150000_n_0_0_1_wf : ScatterDims.WF S50000 S150000x1 S150000 [] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x128.size a ≤ S150000x128.size a
  hwx0_0 : ∀ i : grid0.Coords, EltTy.bits .f32 = 32 ∨ (Rect.block (s := S150000x128) S1200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x128.size a ≤ S150000x128.size a
  hwx0_1 : ∀ i : grid0.Coords, EltTy.bits .f32 = 32 ∨ (Rect.block (s := S150000x128) S1200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x128.size a ≤ S150000x128.size a
  hwx0_2 : ∀ i : grid0.Coords, EltTy.bits .f32 = 32 ∨ (Rect.block (s := S150000x128) S1200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x512.size a ≤ S384x512.size a
  hwx0_3 : ∀ i : grid0.Coords, EltTy.bits .f32 = 32 ∨ (Rect.block (s := S384x512) S384x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1152.size a ≤ S512x1152.size a
  hwx0_5 : ∀ i : grid0.Coords, EltTy.bits .f32 = 32 ∨ (Rect.block (s := S512x1152) S512x1152.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1152.size a ≤ S1152.size a
  hwx0_6 : ∀ i : grid0.Coords, EltTy.bits .f32 = 32 ∨ (Rect.block (s := S1152) S1152.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1200x512.size a ≤ S150000x512.size a
  hwx0_7 : ∀ i : grid0.Coords, EltTy.bits .f32 = 32 ∨ (Rect.block (s := S150000x512) S1200x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1200x128.size a ≤ S150000x128.size a
  hwx0_8 : ∀ i : grid0.Coords, EltTy.bits .f32 = 32 ∨ (Rect.block (s := S150000x128) S1200x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1200x512.size a ≤ S150000x512.size a
  hwx0_9 : ∀ i : grid0.Coords, EltTy.bits .f32 = 32 ∨ (Rect.block (s := S150000x512) S1200x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def dot_S1200x384_S384x512_S1200x512_1_0_0_1_n_n : DotDims S1200x384 S384x512 S1200x512 where
  lhsContracting := [1]
  rhsContracting := [0]
  lhsNonContracting := [0]
  rhsNonContracting := [1]
  lhsBatch := []
  rhsBatch := []
  wf := dot_S1200x384_S384x512_S1200x512_1_0_0_1_n_n_wf
def dot_S1200x512_S512x1152_S1200x1152_1_0_0_1_n_n : DotDims S1200x512 S512x1152 S1200x1152 where
  lhsContracting := [1]
  rhsContracting := [0]
  lhsNonContracting := [0]
  rhsNonContracting := [1]
  lhsBatch := []
  rhsBatch := []
  wf := dot_S1200x512_S512x1152_S1200x1152_1_0_0_1_n_n_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v4) S1200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1200x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1200x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1200x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v26) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S150000x128 : Shape := ⟨2, ![150000, 128]⟩
abbrev S150000x2 : Shape := ⟨2, ![150000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S150000x1 : Shape := ⟨2, ![150000, 1]⟩
abbrev S150000 : Shape := ⟨1, ![150000]⟩
abbrev S_ : Shape := ⟨0, ![]⟩
abbrev S150000x384 : Shape := ⟨2, ![150000, 384]⟩
abbrev S150000x512 : Shape := ⟨2, ![150000, 512]⟩
abbrev S1x512 : Shape := ⟨2, ![1, 512]⟩
abbrev S150000x1152 : Shape := ⟨2, ![150000, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S150000x128, .f32⟩
  | .hbm, ⟨2, _⟩ => ⟨S150000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S150000x1, .i32⟩
  | .hbm, ⟨12, _⟩ => ⟨S150000, .i32⟩
  | .hbm, ⟨13, _⟩ => ⟨S150000x1, .i32⟩
  | .hbm, ⟨14, _⟩ => ⟨S150000, .i32⟩
  | .hbm, ⟨15, _⟩ => ⟨S_, .i32⟩
  | .hbm, ⟨16, _⟩ => ⟨S150000, .i32⟩
  | .hbm, ⟨17, _⟩ => ⟨S150000, .i1⟩
  | .hbm, ⟨18, _⟩ => ⟨S_, .i32⟩
  | .hbm, ⟨19, _⟩ => ⟨S150000, .i32⟩
  | .hbm, ⟨20, _⟩ => ⟨S150000, .i32⟩
  | .hbm, ⟨21, _⟩ => ⟨S150000, .i32⟩
  | .hbm, ⟨22, _⟩ => ⟨S150000x1, .i32⟩
  | .hbm, ⟨23, _⟩ => ⟨S150000x128, .f32⟩
  | .hbm, ⟨24, _⟩ => ⟨S_, .i32⟩
  | .hbm, ⟨25, _⟩ => ⟨S150000, .i32⟩
  | .hbm, ⟨26, _⟩ => ⟨S150000, .i1⟩
  | .hbm, ⟨27, _⟩ => ⟨S_, .i32⟩
  | .hbm, ⟨28, _⟩ => ⟨S150000, .i32⟩
  | .hbm, ⟨29, _⟩ => ⟨S150000, .i32⟩
  | .hbm, ⟨30, _⟩ => ⟨S150000, .i32⟩
  | .hbm, ⟨31, _⟩ => ⟨S150000x1, .i32⟩
  | .hbm, ⟨32, _⟩ => ⟨S150000x128, .f32⟩
  | .hbm, ⟨33, _⟩ => ⟨S150000x384, .f32⟩
  | .hbm, ⟨34, _⟩ => ⟨S150000x512, .f32⟩
  | .hbm, ⟨35, _⟩ => ⟨S1x512, .f32⟩
  | .hbm, ⟨36, _⟩ => ⟨S150000x512, .f32⟩
  | .hbm, ⟨37, _⟩ => ⟨S150000x512, .f32⟩
  | .hbm, ⟨38, _⟩ => ⟨S_, .f32⟩
  | .hbm, ⟨39, _⟩ => ⟨S150000x512, .f32⟩
  | .hbm, ⟨40, _⟩ => ⟨S150000x512, .f32⟩
  | .hbm, ⟨41, _⟩ => ⟨S150000x1152, .f32⟩
  | .hbm, ⟨42, _⟩ => ⟨S1x1152, .f32⟩
  | .hbm, ⟨43, _⟩ => ⟨S150000x1152, .f32⟩
  | .hbm, ⟨44, _⟩ => ⟨S150000x1152, .f32⟩
  | .hbm, ⟨45, _⟩ => ⟨S_, .f32⟩
  | .hbm, ⟨46, _⟩ => ⟨S150000x1152, .f32⟩
  | .hbm, ⟨47, _⟩ => ⟨S150000x1152, .f32⟩
  | .hbm, ⟨48, _⟩ => ⟨S150000x512, .f32⟩
  | .hbm, ⟨49, _⟩ => ⟨S150000x128, .f32⟩
  | .hbm, ⟨50, _⟩ => ⟨S150000x512, .f32⟩
  | .hbm, ⟨51, _⟩ => ⟨S_, .f32⟩
  | .hbm, ⟨52, _⟩ => ⟨S50000x512, .f32⟩
  | .hbm, ⟨53, _⟩ => ⟨S150000x1, .i32⟩
  | .hbm, ⟨54, _⟩ => ⟨S50000x512, .f32⟩
  | .hbm, ⟨55, _⟩ => ⟨S_, .f32⟩
  | .hbm, ⟨56, _⟩ => ⟨S50000x512, .f32⟩
  | .hbm, ⟨57, _⟩ => ⟨S150000x1, .i32⟩
  | .hbm, ⟨58, _⟩ => ⟨S50000x512, .f32⟩
  | .hbm, ⟨59, _⟩ => ⟨S50000x512, .f32⟩
  | .hbm, ⟨60, _⟩ => ⟨S_, .f32⟩
  | .hbm, ⟨61, _⟩ => ⟨S150000, .f32⟩
  | .hbm, ⟨62, _⟩ => ⟨S_, .f32⟩
  | .hbm, ⟨63, _⟩ => ⟨S50000, .f32⟩
  | .hbm, ⟨64, _⟩ => ⟨S150000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S150000x1, .i32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x512, .f32⟩
  | .hbm, ⟨76, _⟩ => ⟨S50000x512, .f32⟩
  | .hbm, ⟨77, _⟩ => ⟨S50000x512, .f32⟩
  | .hbm, ⟨78, _⟩ => ⟨S1x512, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000x512, .f32⟩
  | .hbm, ⟨83, _⟩ => ⟨S50000x512, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_cst : Ref sig .tc := ⟨.hbm, 88, rfl⟩
abbrev main_call3_v0 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  slices_S150000x2_S150000x1_0_0 : S150000x2.Slices ![0, 0] S150000x1
  shapeCasts_S150000x1_S150000 : S150000x1.ShapeCasts S150000
  slices_S150000x2_S150000x1_0_1 : S150000x2.Slices ![0, 1] S150000x1
  bcast_S_S150000 : S_.BroadcastsInDim S150000 (![] : Fin 0 → Fin S150000.rank)
  bcast_S150000_S150000x1_0 : S150000.BroadcastsInDim S150000x1 (![0] : Fin 1 → Fin S150000x1.rank)
  concatenates_S150000x128_S150000x128_S150000x128_S150000x384_d1 : Shape.Concatenates [S150000x128, S150000x128, S150000x128] S150000x384 1
  bcast_S512_S1x512_1 : S512.BroadcastsInDim S1x512 (![1] : Fin 1 → Fin S1x512.rank)
  bcast_S1x512_S150000x512_0_1 : S1x512.BroadcastsInDim S150000x512 (![0, 1] : Fin 2 → Fin S150000x512.rank)
  bcast_S_S150000x512 : S_.BroadcastsInDim S150000x512 (![] : Fin 0 → Fin S150000x512.rank)
  bcast_S1152_S1x1152_1 : S1152.BroadcastsInDim S1x1152 (![1] : Fin 1 → Fin S1x1152.rank)
  bcast_S1x1152_S150000x1152_0_1 : S1x1152.BroadcastsInDim S150000x1152 (![0, 1] : Fin 2 → Fin S150000x1152.rank)
  bcast_S_S150000x1152 : S_.BroadcastsInDim S150000x1152 (![] : Fin 0 → Fin S150000x1152.rank)
  slices_S150000x1152_S150000x512_0_0 : S150000x1152.Slices ![0, 0] S150000x512
  slices_S150000x1152_S150000x128_0_512 : S150000x1152.Slices ![0, 512] S150000x128
  slices_S150000x1152_S150000x512_0_640 : S150000x1152.Slices ![0, 640] S150000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S150000x1_S150000x128_1_0_n_n_0_1_1128_wf : GatherDims.WF S50000x128 S150000x1 S150000x128 [1] [0] [] [0] [] 1 ![1, 128]
  dot_S150000x384_S384x512_S150000x512_1_0_0_1_n_n_wf : DotDims.WF S150000x384 S384x512 S150000x512 [1] [0] [0] [1] [] []
  dot_S150000x512_S512x1152_S150000x1152_1_0_0_1_n_n_wf : DotDims.WF S150000x512 S512x1152 S150000x1152 [1] [0] [0] [1] [] []
  scatter_S50000x512_S150000x1_S150000x512_1_0_0_1_wf : ScatterDims.WF S50000x512 S150000x1 S150000x512 [1] [0] [0] 1
  scatter_S50000_S150000x1_S150000_n_0_0_1_wf : ScatterDims.WF S50000 S150000x1 S150000 [] [0] [0] 1
  dot_S50000x512_S512x512_S50000x512_1_0_0_1_n_n_wf : DotDims.WF S50000x512 S512x512 S50000x512 [1] [0] [0] [1] [] []
  dot_S50000x512_S512x128_S50000x128_1_0_0_1_n_n_wf : DotDims.WF S50000x512 S512x128 S50000x128 [1] [0] [0] [1] [] []

variable [Facts₀]

def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def dot_S150000x384_S384x512_S150000x512_1_0_0_1_n_n : DotDims S150000x384 S384x512 S150000x512 where
  lhsContracting := [1]
  rhsContracting := [0]
  lhsNonContracting := [0]
  rhsNonContracting := [1]
  lhsBatch := []
  rhsBatch := []
  wf := dot_S150000x384_S384x512_S150000x512_1_0_0_1_n_n_wf
def dot_S150000x512_S512x1152_S150000x1152_1_0_0_1_n_n : DotDims S150000x512 S512x1152 S150000x1152 where
  lhsContracting := [1]
  rhsContracting := [0]
  lhsNonContracting := [0]
  rhsNonContracting := [1]
  lhsBatch := []
  rhsBatch := []
  wf := dot_S150000x512_S512x1152_S150000x1152_1_0_0_1_n_n_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KDefs.lean ====
/-
  THE KERNEL PROGRAM'S HOST OPERATIONS as functions of the argument arrays: the row take it feeds region 0 with and
  the pooled array it feeds region 1 with.

  A take of rows: column k of the edge list, read as a vector; a negative entry has the row count 50000 added to it;
  the rows of the feature table are gathered at these indices; and every row whose index is not in 0 … 49999 is
  replaced by the word 0x7FC00000's value. The pooled array: the subject vectors summed into their subject's row plus
  the object vectors summed into their object's row, divided by the larger of 1 and the number of edges at that row.
-/
import proofs.«414812_j7894149890339_2_alg».proof.Proof.Gen.KernelIdeal

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

variable {F : FTy → Type} [FloatOps F]

/-- Column 0 of the edge list (the subjects) as a vector. -/
def col0 (x2 : (⟨S150000x2, .i32⟩ : BufTy).Contents (Elt F)) : (⟨S150000, .i32⟩ : BufTy).Contents (Elt F) :=
  shapeCast _ (extractStridedSlice S150000x1 ![0, 0] x2 slices_S150000x2_S150000x1_0_0) shapeCasts_S150000x1_S150000
/-- Column 1 of the edge list (the objects) as a vector. -/
def col1 (x2 : (⟨S150000x2, .i32⟩ : BufTy).Contents (Elt F)) : (⟨S150000, .i32⟩ : BufTy).Contents (Elt F) :=
  shapeCast _ (extractStridedSlice S150000x1 ![0, 1] x2 slices_S150000x2_S150000x1_0_1) shapeCasts_S150000x1_S150000

/-- An index vector with 50000 added to its negative entries, kept as a column. -/
def wrapCol (s : (⟨S150000, .i32⟩ : BufTy).Contents (Elt F)) : (⟨S150000x1, .i32⟩ : BufTy).Contents (Elt F) :=
  broadcastInDim S150000x1 ![0] bcast_S150000_S150000x1_0
    (select (cmpi .slt s (broadcastInDim S150000 ![] bcast_S_S150000 (constantI S_ 32 0#32)))
      (addi s (broadcastInDim S150000 ![] bcast_S_S150000 (constantI S_ 32 50000#32))) s)

/-- Which rows' index is in 0 … 49999, spread over the 128 columns. -/
def inRange (idx : (⟨S150000x1, .i32⟩ : BufTy).Contents (Elt F)) : (⟨S150000x128, .i1⟩ : BufTy).Contents (Elt F) :=
  broadcastInDim S150000x128 ![0] bcast_S150000_S150000x128_0
    (Host.reduce IntOp.andi
      (andi (cmpi .sge idx (broadcastInDim S150000x1 ![] bcast_S_S150000x1 (constantI S_ 32 0#32)))
        (cmpi .sle idx (broadcastInDim S150000x1 ![0, 1] bcast_S1x1_S150000x1_0_1
          (broadcastInDim S1x1 ![1] bcast_S1_S1x1_1 (constantI S1 32 49999#32)))))
      (constantI S_ 1 1#1) reducesTo_S150000x1_S150000_d1 h_S_)

/-- The table's rows gathered at an index column. -/
def rawTake (x0 : (⟨S50000x128, .f32⟩ : BufTy).Contents (Elt F)) (idx : (⟨S150000x1, .i32⟩ : BufTy).Contents (Elt F)) : (⟨S150000x128, .f32⟩ : BufTy).Contents (Elt F) :=
  Host.gather gather_S50000x128_S150000x1_S150000x128_1_0_n_n_0_1_1128 x0 idx

/-- The take: gathered rows where the index is in range, the word 0x7FC00000's value elsewhere. -/
def take (x0 : (⟨S50000x128, .f32⟩ : BufTy).Contents (Elt F)) (s : (⟨S150000, .i32⟩ : BufTy).Contents (Elt F)) : (⟨S150000x128, .f32⟩ : BufTy).Contents (Elt F) :=
  select (inRange (wrapCol s)) (rawTake x0 (wrapCol s))
    (broadcastInDim S150000x128 ![] bcast_S_S150000x128 (constant S_ .f32 0x7FC00000#32))

/-- The pooled array. -/
def pool (sub ob : (⟨S150000x512, .f32⟩ : BufTy).Contents (Elt F)) (x2 : (⟨S150000x2, .i32⟩ : BufTy).Contents (Elt F)) : (⟨S50000x512, .f32⟩ : BufTy).Contents (Elt F) :=
  Host.divf
    (addf
      (Host.scatterAdd scatter_S50000x512_S150000x1_S150000x512_1_0_0_1
        (broadcastInDim S50000x512 ![] bcast_S_S50000x512 (constant S_ .f32 0x00000000#32))
        (broadcastInDim S150000x1 ![0] bcast_S150000_S150000x1_0 (col0 x2)) sub)
      (Host.scatterAdd scatter_S50000x512_S150000x1_S150000x512_1_0_0_1
        (broadcastInDim S50000x512 ![] bcast_S_S50000x512 (constant S_ .f32 0x00000000#32))
        (broadcastInDim S150000x1 ![0] bcast_S150000_S150000x1_0 (col1 x2)) ob))
    (broadcastInDim S50000x512 ![0, 1] bcast_S50000x1_S50000x512_0_1
      (broadcastInDim S50000x1 ![0] bcast_S50000_S50000x1_0
        (maximumf
          (addf
            (Host.scatterAdd scatter_S50000_S150000x1_S150000_n_0_0_1
              (broadcastInDim S50000 ![] bcast_S_S50000 (constant S_ .f32 0x00000000#32))
              (broadcastInDim S150000x1 ![0] bcast_S150000_S150000x1_0 (col0 x2))
              (broadcastInDim S150000 ![] bcast_S_S150000 (constant S_ .f32 0x3F800000#32)))
            (Host.scatterAdd scatter_S50000_S150000x1_S150000_n_0_0_1
              (broadcastInDim S50000 ![] bcast_S_S50000 (constant S_ .f32 0x00000000#32))
              (broadcastInDim S150000x1 ![0] bcast_S150000_S150000x1_0 (col1 x2))
              (broadcastInDim S150000 ![] bcast_S_S150000 (constant S_ .f32 0x3F800000#32))))
          (broadcastInDim S50000 ![] bcast_S_S50000 (constant S_ .f32 0x3F800000#32)))))

end Cert.KernelIdeal.KHost

end
-- ==== Proof.KHost.lean ====
/-
  THE KERNEL PROGRAM'S HOST OPERATIONS READ THROUGH THE RUN: what the two regions are entered with and where the two
  results end, as the functions of the argument arrays that KDefs names.

  Region 0 is entered with the takes at the subjects and at the objects in its windows 0 and 2 and the arguments as
  launched in the others; region 1 is entered with the pooled array of region 0's subject and object outputs and the
  arguments as launched; the new object features end as region 1's output array, and the new predicate vectors as
  region 0's second output array, which nothing later writes.
-/
import proofs.«414812_j7894149890339_2_alg».proof.Proof.Gen.KernelIdeal.Frame
import proofs.«414812_j7894149890339_2_alg».proof.Proof.KDefs

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

/-! ## What region 0 is entered with -/

/-- The subjects' index vector. -/
theorem W3_v1 (c : Dev nD) : W3 m ρ c (Proc.devRef .tc main_v1) = col0 (m ((c : Thread nD τ).loc main_arg2)) := by
  dsimp only [W3, W2, W1, W0]
  simp only [hostOps0, hostOps0_1, hostOps0_2]
  after_results_simp
  rfl

/-- The objects' index vector. -/
theorem W3_v3 (c : Dev nD) : W3 m ρ c (Proc.devRef .tc main_v3) = col1 (m ((c : Thread nD τ).loc main_arg2)) := by
  dsimp only [W3, W2, W1, W0]
  simp only [hostOps0, hostOps0_1, hostOps0_2]
  after_results_simp
  rfl

/-- Region 0 finds the take at the subjects in its window 0. -/
theorem W3_v4 (c : Dev nD) : W3 m ρ c (Proc.devRef .tc main_v4)
    = take (m ((c : Thread nD τ).loc main_arg0)) (col0 (m ((c : Thread nD τ).loc main_arg2))) := by
  dsimp only [W3, W2, W1, W0]
  simp only [hostOps0, hostOps0_1, hostOps0_2]
  after_results_simp
  simp only [TRef.toBuf, TRef.ofBuf, cast_eq]
  rfl

/-- Region 0 finds the take at the objects in its window 2. -/
theorem W3_v5 (c : Dev nD) : W3 m ρ c (Proc.devRef .tc main_v5)
    = take (m ((c : Thread nD τ).loc main_arg0)) (col1 (m ((c : Thread nD τ).loc main_arg2))) := by
  dsimp only [W3, W2, W1, W0]
  simp only [hostOps0, hostOps0_1, hostOps0_2]
  after_results_simp
  simp only [TRef.toBuf, TRef.ofBuf, cast_eq]
  rfl

theorem W3_arg1 (c : Dev nD) : W3 m ρ c (Proc.devRef .tc main_arg1) = m ((c : Thread nD τ).loc main_arg1) := by
  dsimp only [W3, W2, W1, W0]
  simp only [hostOps0, hostOps0_1, hostOps0_2]
  after_results_simp

theorem W3_arg2 (c : Dev nD) : W3 m ρ c (Proc.devRef .tc main_arg2) = m ((c : Thread nD τ).loc main_arg2) := by
  dsimp only [W3, W2, W1, W0]
  simp only [hostOps0, hostOps0_1, hostOps0_2]
  after_results_simp

theorem W3_arg3 (c : Dev nD) : W3 m ρ c (Proc.devRef .tc main_arg3) = m ((c : Thread nD τ).loc main_arg3) := by
  dsimp only [W3, W2, W1, W0]
  simp only [hostOps0, hostOps0_1, hostOps0_2]
  after_results_simp

theorem W3_arg4 (c : Dev nD) : W3 m ρ c (Proc.devRef .tc main_arg4) = m ((c : Thread nD τ).loc main_arg4) := by
  dsimp only [W3, W2, W1, W0]
  simp only [hostOps0, hostOps0_1, hostOps0_2]
  after_results_simp

theorem W3_arg5 (c : Dev nD) : W3 m ρ c (Proc.devRef .tc main_arg5) = m ((c : Thread nD τ).loc main_arg5) := by
  dsimp only [W3, W2, W1, W0]
  simp only [hostOps0, hostOps0_1, hostOps0_2]
  after_results_simp

theorem W3_arg6 (c : Dev nD) : W3 m ρ c (Proc.devRef .tc main_arg6) = m ((c : Thread nD τ).loc main_arg6) := by
  dsimp only [W3, W2, W1, W0]
  simp only [hostOps0, hostOps0_1, hostOps0_2]
  after_results_simp

theorem W3_arg7 (c : Dev nD) : W3 m ρ c (Proc.devRef .tc main_arg7) = m ((c : Thread nD τ).loc main_arg7) := by
  dsimp only [W3, W2, W1, W0]
  simp only [hostOps0, hostOps0_1, hostOps0_2]
  after_results_simp

theorem W3_arg8 (c : Dev nD) : W3 m ρ c (Proc.devRef .tc main_arg8) = m ((c : Thread nD τ).loc main_arg8) := by
  dsimp only [W3, W2, W1, W0]
  simp only [hostOps0, hostOps0_1, hostOps0_2]
  after_results_simp

theorem W3_arg9 (c : Dev nD) : W3 m ρ c (Proc.devRef .tc main_arg9) = m ((c : Thread nD τ).loc main_arg9) := by
  dsimp only [W3, W2, W1, W0]
  simp only [hostOps0, hostOps0_1, hostOps0_2]
  after_results_simp

theorem W3_arg10 (c : Dev nD) : W3 m ρ c (Proc.devRef .tc main_arg10) = m ((c : Thread nD τ).loc main_arg10) := by
  dsimp only [W3, W2, W1, W0]
  simp only [hostOps0, hostOps0_1, hostOps0_2]
  after_results_simp

/-! ## What region 1 is entered with -/

/-- A buffer region 0 does not stage is as region 0 found it. -/
theorem W4_keep (c : Dev nD) (b : Ref sig .tc) (hb : ∀ w, Pipeline.arrRef spec0 w ≠ b) :
    W4 m ρ c (Proc.devRef .tc b) = W3 m ρ c (Proc.devRef .tc b) := W4_of_ne m ρ c b hb

/-- Region 1 finds the pooled array in its window 0: the pool of region 0's subject and object outputs. -/
theorem W5_v26 (c : Dev nD) : W5 m ρ c (Proc.devRef .tc main_v26)
    = pool (W4 m ρ c (Proc.devRef .tc main_v6_0)) (W4 m ρ c (Proc.devRef .tc main_v6_2)) (m ((c : Thread nD τ).loc main_arg2)) := by
  dsimp only [W5]
  simp only [hostOps1]
  after_results_simp
  rw [W4_keep m ρ c main_v1 (by decide), W4_keep m ρ c main_v3 (by decide), W3_v1, W3_v3]
  rfl

theorem W5_arg7 (c : Dev nD) : W5 m ρ c (Proc.devRef .tc main_arg7) = m ((c : Thread nD τ).loc main_arg7) := by
  dsimp only [W5]
  simp only [hostOps1]
  after_results_simp
  rw [W4_keep m ρ c main_arg7 (by decide), W3_arg7]

theorem W5_arg8 (c : Dev nD) : W5 m ρ c (Proc.devRef .tc main_arg8) = m ((c : Thread nD τ).loc main_arg8) := by
  dsimp only [W5]
  simp only [hostOps1]
  after_results_simp
  rw [W4_keep m ρ c main_arg8 (by decide), W3_arg8]

theorem W5_arg9 (c : Dev nD) : W5 m ρ c (Proc.devRef .tc main_arg9) = m ((c : Thread nD τ).loc main_arg9) := by
  dsimp only [W5]
  simp only [hostOps1]
  after_results_simp
  rw [W4_keep m ρ c main_arg9 (by decide), W3_arg9]

theorem W5_arg10 (c : Dev nD) : W5 m ρ c (Proc.devRef .tc main_arg10) = m ((c : Thread nD τ).loc main_arg10) := by
  dsimp only [W5]
  simp only [hostOps1]
  after_results_simp
  rw [W4_keep m ρ c main_arg10 (by decide), W3_arg10]

/-! ## Where the results end -/

/-- Region 0's three output arrays at its exit. -/
theorem W4_v6_0 (c : Dev nD) : W4 m ρ c (Proc.devRef .tc main_v6_0) = (dat0 (V3 m ρ) c).arrAt 7 cfg0.N := W4_arr m ρ c 7
theorem W4_v6_1 (c : Dev nD) : W4 m ρ c (Proc.devRef .tc main_v6_1) = (dat0 (V3 m ρ) c).arrAt 8 cfg0.N := W4_arr m ρ c 8
theorem W4_v6_2 (c : Dev nD) : W4 m ρ c (Proc.devRef .tc main_v6_2) = (dat0 (V3 m ρ) c).arrAt 9 cfg0.N := W4_arr m ρ c 9

/-- The new object features end as region 1's output array. -/
theorem W6_v27 (c : Dev nD) : W6 m ρ c (Proc.devRef .tc main_v27) = (dat1 (V5 m ρ) c).arrAt 5 cfg1.N := W6_arr m ρ c 5

/-- The new predicate vectors end as region 0 left them: neither the pooling nor region 1 writes them. -/
theorem W6_v6_1 (c : Dev nD) : W6 m ρ c (Proc.devRef .tc main_v6_1) = (dat0 (V3 m ρ) c).arrAt 8 cfg0.N := by
  rw [W6_of_ne m ρ c main_v6_1 (by decide)]
  dsimp only [W5]
  simp only [hostOps1]
  after_results_simp
  exact W4_v6_1 m ρ c

end Cert.KernelIdeal.KHost

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«414812_j7894149890339_2_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.Layer.lean ====
/-
  ONE DENSE LAYER WITH A RELU, ON ONE ROW, and the two programs' spellings of it read at an index.

  For a row h of K entries, a weight matrix W of K rows by N columns and a bias b of N entries,
  layer h W b is the row q ↦ max ((∑ k, h k · W (k, q)) + b q) 0 on the extended reals (0 the zero word's value).
  The host spells it as a dot_general plus the bias broadcast over the rows, joined with a zero splat; a kernel block
  spells it as a matrix product into the zero splat of the operands after a change of float format (the identity on
  the extended reals) plus the bias kept as one row and broadcast, joined with a zero splat. Both, read at (p, q), are
  layer of row p of the left operand. A join of three [R, 128] arrays along the columns is read at (p, j) by the
  third of the columns j falls in; a column slice at offset o of width C reads column o + q.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import proofs.«414812_j7894149890339_2_alg».proof.Proof.LibDotAt

noncomputable section

namespace Cert.Layer

open Idealize.ShloMosaic Idealize.ShloMosaic.ValueIdx

/-- The zero word's value. -/
abbrev z32 : EReal := Ideal.ofBits .f32 0x00000000#32

/-- One dense layer followed by the join with zero, on one row. -/
def layer {K N : ℕ} (h : Fin K → EReal) (W : (⟨2, ![K, N]⟩ : Shape).Idx → EReal) (b : (⟨1, ![N]⟩ : Shape).Idx → EReal) :
    Fin N → EReal :=
  fun q => max ((∑ k : Fin K, h k * W (ix2 k q)) + b (ix1 q)) z32

/-- Row p of three [R, 128] arrays joined along the columns. -/
def joinRow {R : ℕ} (a b c : (⟨2, ![R, 128]⟩ : Shape).Idx → EReal) (p : Fin R) : Fin 384 → EReal :=
  fun j => if h₁ : j.val < 128 then a (ix2 p ⟨j.val, h₁⟩)
    else if h₂ : j.val < 256 then b (ix2 p ⟨j.val - 128, by omega⟩)
    else c (ix2 p ⟨j.val - 256, by omega⟩)

/-- A [1, N] row broadcast over M rows, read at (p, q): the row at (0, q). -/
private theorem bcast_rows_at {α : Type} {M N : ℕ} (h2 : (⟨2, ![1, N]⟩ : Shape).BroadcastsInDim ⟨2, ![M, N]⟩ ![0, 1])
    (v : (⟨2, ![1, N]⟩ : Shape).Idx → α) (p : Fin M) (q : Fin N) :
    broadcastInDim ⟨2, ![M, N]⟩ ![0, 1] h2 v (ix2 p q) = v (ix2 (0 : Fin 1) q) :=
  broadcastInDim_apply _ h2 v (ix2 p q) (ix2 (0 : Fin 1) q) fun a => by
    match a with
    | ⟨0, _⟩ => rfl
    | ⟨1, _⟩ =>
      show q.val = if N = 1 then 0 else q.val
      split
      · have := q.isLt; omega
      · rfl

/-- A vector of N entries as a [1, N] row, read at (0, q): the vector at q. -/
private theorem bcast_vec_at {α : Type} {N : ℕ} (h1 : (⟨1, ![N]⟩ : Shape).BroadcastsInDim ⟨2, ![1, N]⟩ ![1])
    (v : (⟨1, ![N]⟩ : Shape).Idx → α) (q : Fin N) :
    broadcastInDim ⟨2, ![1, N]⟩ ![1] h1 v (ix2 (0 : Fin 1) q) = v (ix1 q) :=
  broadcastInDim_apply _ h1 v (ix2 (0 : Fin 1) q) (ix1 q) fun a => by
    match a with
    | ⟨0, _⟩ =>
      show q.val = if N = 1 then 0 else q.val
      split
      · have := q.isLt; omega
      · rfl

/-- A scalar splat read anywhere: the scalar. -/
private theorem bcast_scalar_at {α : Type} {t : Shape} (h0 : (⟨0, ![]⟩ : Shape).BroadcastsInDim t ![])
    (v : (⟨0, ![]⟩ : Shape).Idx → α) (j : t.Idx) : broadcastInDim t ![] h0 v j = v ix0 :=
  broadcastInDim_apply _ h0 v j ix0 fun a => a.elim0

/-- The host's layer at (p, q). -/
theorem host_layer_at {M K N : ℕ} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf (addf (Host.dotGeneral d none l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 p q)
      = layer (fun k => l (ix2 p k)) W b q := by
  rw [maximumf_apply, addf_apply, DotAt.dotGeneral_plain d hr hs hlc hrc hln hrn hlb hrb,
    bcast_rows_at, bcast_vec_at, bcast_scalar_at]
  rfl

/-- A vector of N entries recast as a [1, N] row, read at (0, q): the vector at q. -/
private theorem cast_vec_at {α : Type} {N : ℕ} (hc : (⟨1, ![N]⟩ : Shape).ShapeCasts ⟨2, ![1, N]⟩)
    (v : (⟨1, ![N]⟩ : Shape).Idx → α) (q : Fin N) :
    shapeCast ⟨2, ![1, N]⟩ v hc (ix2 (0 : Fin 1) q) = v (ix1 q) :=
  shapeCast_apply v hc (ix2 (0 : Fin 1) q) (ix1 q) (by
    rw [Shape.rowMajor_val_one, Shape.rowMajor_val_two]
    show q.val = 0 * N + q.val
    omega)

/-- A kernel block's layer at (p, q): the operands pass a change of float format first. -/
theorem block_layer_at {M K N : ℕ} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (W : FVec Ideal ⟨2, ![K, N]⟩ .f32) (b : FVec Ideal ⟨1, ![N]⟩ .f32)
    (hl : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    maximumf (addf (matmul d none (truncf .bf16 l hl) (truncf .bf16 W hl) (constant (F := Ideal) ⟨2, ![M, N]⟩ .f32 0x00000000#32))
        (broadcastTo ⟨2, ![M, N]⟩ (shapeCast ⟨2, ![1, N]⟩ b hc) hbc))
      (broadcast ⟨2, ![M, N]⟩ (Scalar.ofBits (F := Ideal) .f32 0x00000000#32)) (ix2 p q)
      = layer (fun k => l (ix2 p k)) W b q := by
  rw [maximumf_apply, addf_apply, DotAt.matmul_plain d hr hs hlc hrc hln hrn hlb hrb,
    broadcastTo_1b_ab_apply, cast_vec_at, broadcast_apply]
  rfl

/-- Three [R, 128] arrays joined along the columns, read at (p, j). -/
theorem join3_at {R : ℕ} (a b c : (⟨2, ![R, 128]⟩ : Shape).Idx → EReal)
    (h : Shape.Concatenates [(⟨2, ![R, 128]⟩ : Shape), ⟨2, ![R, 128]⟩, ⟨2, ![R, 128]⟩] (⟨2, ![R, 384]⟩ : Shape) 1)
    (p : Fin R) (j : Fin 384) :
    concatenate (⟨2, ![R, 384]⟩ : Shape) 1 [⟨⟨2, ![R, 128]⟩, a⟩, ⟨⟨2, ![R, 128]⟩, b⟩, ⟨⟨2, ![R, 128]⟩, c⟩] h (ix2 p j)
      = joinRow a b c p j := by
  -- off the joined axis the piece's index keeps the row; on it, the column less the widths before the piece
  have off : ∀ (x : Fin 128) (ax : Fin 2), ax.cast rfl ≠ (1 : Fin 2) →
      ((ix2 p x : (⟨2, ![R, 128]⟩ : Shape).Idx) ax).val = ((ix2 p j : (⟨2, ![R, 384]⟩ : Shape).Idx) (ax.cast rfl)).val := by
    intro x ax hax
    match ax with
    | ⟨0, _⟩ => rfl
    | ⟨1, _⟩ => exact absurd rfl hax
  show _ = if h₁ : j.val < 128 then a (ix2 p ⟨j.val, h₁⟩)
    else if h₂ : j.val < 256 then b (ix2 p ⟨j.val - 128, by omega⟩)
    else c (ix2 p ⟨j.val - 256, by omega⟩)
  by_cases h₁ : j.val < 128
  · rw [dif_pos h₁]
    exact concatenate_apply_piece (t := ⟨2, ![R, 384]⟩) (1 : Fin 2)
      [⟨⟨2, ![R, 128]⟩, a⟩, ⟨⟨2, ![R, 128]⟩, b⟩, ⟨⟨2, ![R, 128]⟩, c⟩] h (ix2 p j)
      0 (by show 0 < 3; omega) ⟨2, ![R, 128]⟩ a rfl rfl 0 rfl
      (ix2 p ⟨j.val, h₁⟩) (off _) (by show 0 + j.val = j.val; omega)
  · rw [dif_neg h₁]
    by_cases h₂ : j.val < 256
    · rw [dif_pos h₂]
      exact concatenate_apply_piece (t := ⟨2, ![R, 384]⟩) (1 : Fin 2)
        [⟨⟨2, ![R, 128]⟩, a⟩, ⟨⟨2, ![R, 128]⟩, b⟩, ⟨⟨2, ![R, 128]⟩, c⟩] h (ix2 p j)
        1 (by show 1 < 3; omega) ⟨2, ![R, 128]⟩ b rfl rfl 128 rfl
        (ix2 p ⟨j.val - 128, by omega⟩) (off _) (by show 128 + (j.val - 128) = j.val; omega)
    · rw [dif_neg h₂]
      exact concatenate_apply_piece (t := ⟨2, ![R, 384]⟩) (1 : Fin 2)
        [⟨⟨2, ![R, 128]⟩, a⟩, ⟨⟨2, ![R, 128]⟩, b⟩, ⟨⟨2, ![R, 128]⟩, c⟩] h (ix2 p j)
        2 (by show 2 < 3; omega) ⟨2, ![R, 128]⟩ c rfl rfl 256 rfl
        (ix2 p ⟨j.val - 256, by have := j.isLt; omega⟩) (off _) (by show 256 + (j.val - 256) = j.val; omega)

end Cert.Layer

end
-- ==== Proof.Spec.lean ====
/-
  WHAT BOTH PROGRAMS COMPUTE, ROW BY ROW, over the extended reals.

  net1 on one edge: the 384 entries of the joined row (subject's features, predicate's features, object's features)
  pass two dense layers with a join with zero after each (384 → 512 → 1152). Its 1152 outputs are cut into the new
  subject vector (columns 0 … 511), the new predicate vector (512 … 639) and the new object vector (640 … 1151).
  net2 on one object: the 512 pooled entries pass two such layers (512 → 512 → 128).
-/
import proofs.«414812_j7894149890339_2_alg».proof.Proof.Layer

noncomputable section

namespace Cert.Spec

open Idealize.ShloMosaic Idealize.ShloMosaic.ValueIdx Cert.Layer

/-- A rank-2 array of extended reals. -/
abbrev Arr (r c : ℕ) := (⟨2, ![r, c]⟩ : Shape).Idx → EReal
/-- A rank-1 array of extended reals. -/
abbrev Vec1 (n : ℕ) := (⟨1, ![n]⟩ : Shape).Idx → EReal

/-- net1 on one joined row. -/
def net1row (t : Fin 384 → EReal) (W1 : Arr 384 512) (b1 : Vec1 512) (W2 : Arr 512 1152) (b2 : Vec1 1152) :
    Fin 1152 → EReal :=
  layer (layer t W1 b1) W2 b2

/-- net2 on one pooled row. -/
def net2row (h : Fin 512 → EReal) (W3 : Arr 512 512) (b3 : Vec1 512) (W4 : Arr 512 128) (b4 : Vec1 128) :
    Fin 128 → EReal :=
  layer (layer h W3 b3) W4 b4

variable (tsub prd tobj : Arr 150000 128) (W1 : Arr 384 512) (b1 : Vec1 512) (W2 : Arr 512 1152) (b2 : Vec1 1152)

/-- Edge p's new subject vector at q: output column q of net1. -/
def subjAt (p : Fin 150000) (q : Fin 512) : EReal := net1row (joinRow tsub prd tobj p) W1 b1 W2 b2 ⟨q.val, by omega⟩
/-- Edge p's new predicate vector at q: output column 512 + q. -/
def predAt (p : Fin 150000) (q : Fin 128) : EReal := net1row (joinRow tsub prd tobj p) W1 b1 W2 b2 ⟨512 + q.val, by omega⟩
/-- Edge p's new object vector at q: output column 640 + q. -/
def objAt (p : Fin 150000) (q : Fin 512) : EReal := net1row (joinRow tsub prd tobj p) W1 b1 W2 b2 ⟨640 + q.val, by omega⟩

/-- The new subject vectors as an array. -/
def subj : Arr 150000 512 := fun i => subjAt tsub prd tobj W1 b1 W2 b2 (i 0) (i 1)
/-- The new predicate vectors as an array. -/
def pred : Arr 150000 128 := fun i => predAt tsub prd tobj W1 b1 W2 b2 (i 0) (i 1)
/-- The new object vectors as an array. -/
def obj : Arr 150000 512 := fun i => objAt tsub prd tobj W1 b1 W2 b2 (i 0) (i 1)

/-- The new object features: net2 of each pooled row. -/
def newThings (pool : Arr 50000 512) (W3 : Arr 512 512) (b3 : Vec1 512) (W4 : Arr 512 128) (b4 : Vec1 128) : Arr 50000 128 :=
  fun i => net2row (fun k => pool (ix2 (i 0) k)) W3 b3 W4 b4 (i 1)

end Cert.Spec

end
-- ==== Proof.Region0.lean ====
/-
  REGION 0 (net1 over 125 tiles of 1200 edges): what its three output arrays hold when it ends, as functions of
  the arrays it found when it was entered.

  At tile t the body reads rows 1200 t … 1200 t + 1199 of the three edge arrays (128 columns each) and the two weight
  matrices and two biases whole. It joins the three row blocks along the columns into 384 columns, applies the first dense
  layer with its join with zero (512 columns), then the second (1152 columns), and stores columns 0 … 511, 512 … 639 and
  640 … 1151 of the result as the subject, predicate and object blocks, each at rows 1200 t … 1200 t + 1199 of its output
  array. The changes of float format on the way are the identity on the extended reals. So entry (r, q) of each output is
  net1 of the joined row r of the three edge arrays at the output's column offset plus q, whichever tile r falls in; and
  since the 125 tiles' blocks cover all 150000 rows and every tile writes its blocks back, each output array ends holding
  that function everywhere.
-/
import proofs.«414812_j7894149890339_2_alg».proof.Proof.Gen.KernelIdeal.Frame
import proofs.«414812_j7894149890339_2_alg».proof.Proof.Spec

set_option maxRecDepth 16384

noncomputable section

namespace Cert.KernelIdeal.R0

open Idealize.ShloMosaic Idealize.ShloMosaic.TcCoe Idealize.ShloMosaic.ValueIdx Idealize.SL.Sem
open Cert.KernelIdeal Cert.KernelIdeal.Gen

/-! ## The body's arithmetic at an index -/

/-- The zero offsets of a whole-block access, rank 2 and rank 1. -/
private theorem hz2 : (![0, 0] : Fin 2 → Nat) = fun _ => 0 := funext fun a => by fin_cases a <;> rfl
private theorem hz1 : (![0] : Fin 1 → Nat) = fun _ => 0 := funext fun a => by fin_cases a; rfl

/-- The body's 1152-column result at (y, q) is net1 of row y of the three input blocks joined: the outer layer is read
    at (y, q) as a layer of row y of the inner layer's array, whose entry (y, k) is in turn a layer of row y of the join,
    and the join's row y is the joined row. -/
private theorem pay1_at (x0 x2 x3 : Vec Ideal S1200x128 .f32) (w1 : Vec Ideal S384x512 .f32) (bb1 : Vec Ideal S512 .f32)
    (w2 : Vec Ideal S512x1152 .f32) (bb2 : Vec Ideal S1152 .f32) (y : Fin 1200) (q : Fin 1152) :
    k0_pay1 (F := Ideal) x0 x2 x3 w1 bb1 w2 bb2 (ix2 y q)
      = Cert.Spec.net1row (Cert.Layer.joinRow x0 x2 x3 y) w1 bb1 w2 bb2 q := by
  unfold k0_pay1
  rw [shapeCast_self, shapeCast_self]
  refine (Cert.Layer.block_layer_at dot_S1200x512_S512x1152_S1200x1152_1_0_0_1_n_n rfl rfl rfl rfl rfl rfl rfl rfl _ w2 bb2
    bitsLt_bf16_f32 shapeCasts_S1152_S1x1152 broadcasts_S1x1152_S1200x1152 y q).trans ?_
  unfold Cert.Spec.net1row
  refine congrArg (fun h => Cert.Layer.layer h w2 bb2 q) (funext fun k => ?_)
  refine (Cert.Layer.block_layer_at dot_S1200x384_S384x512_S1200x512_1_0_0_1_n_n rfl rfl rfl rfl rfl rfl rfl rfl _ w1 bb1
    bitsLt_bf16_f32 shapeCasts_S512_S1x512 broadcasts_S1x512_S1200x512 y k).trans ?_
  refine congrArg (fun h => Cert.Layer.layer h w1 bb1 k) (funext fun j => ?_)
  exact Cert.Layer.join3_at x0 x2 x3 _ y j

/-- The subject block at j: columns 0 … 511 of the result, so column (j 1) of net1 of joined row (j 0). -/
private theorem pay2_at (x0 x2 x3 : Vec Ideal S1200x128 .f32) (w1 : Vec Ideal S384x512 .f32) (bb1 : Vec Ideal S512 .f32)
    (w2 : Vec Ideal S512x1152 .f32) (bb2 : Vec Ideal S1152 .f32) (j : S1200x512.Idx) :
    k0_pay2 (F := Ideal) x0 x2 x3 w1 bb1 w2 bb2 j
      = Cert.Spec.net1row (Cert.Layer.joinRow x0 x2 x3 (j 0)) w1 bb1 w2 bb2
          ⟨(j 1).val, by have h : (j 1).val < 512 := idx2_lt1 j; omega⟩ := by
  unfold k0_pay2
  refine (extractStridedSlice_apply _ _ _ j (ix2 (j 0) ⟨(j 1).val, by have h : (j 1).val < 512 := idx2_lt1 j; omega⟩)
    (fun a => ?_)).trans (pay1_at ..)
  match a with
  | ⟨0, _⟩ => exact (Nat.zero_add _).symm
  | ⟨1, _⟩ => exact (Nat.zero_add _).symm

/-- The predicate block at j: columns 512 … 639 of the result, so column 512 + (j 1) of net1 of joined row (j 0). -/
private theorem pay3_at (x0 x2 x3 : Vec Ideal S1200x128 .f32) (w1 : Vec Ideal S384x512 .f32) (bb1 : Vec Ideal S512 .f32)
    (w2 : Vec Ideal S512x1152 .f32) (bb2 : Vec Ideal S1152 .f32) (j : S1200x128.Idx) :
    k0_pay3 (F := Ideal) x0 x2 x3 w1 bb1 w2 bb2 j
      = Cert.Spec.net1row (Cert.Layer.joinRow x0 x2 x3 (j 0)) w1 bb1 w2 bb2
          ⟨512 + (j 1).val, by have h : (j 1).val < 128 := idx2_lt1 j; omega⟩ := by
  unfold k0_pay3
  refine (extractStridedSlice_apply _ _ _ j (ix2 (j 0) ⟨512 + (j 1).val, by have h : (j 1).val < 128 := idx2_lt1 j; omega⟩)
    (fun a => ?_)).trans (pay1_at ..)
  match a with
  | ⟨0, _⟩ => exact (Nat.zero_add _).symm
  | ⟨1, _⟩ => rfl

/-- The object block at j: columns 640 … 1151 of the result, so column 640 + (j 1) of net1 of joined row (j 0). -/
private theorem pay4_at (x0 x2 x3 : Vec Ideal S1200x128 .f32) (w1 : Vec Ideal S384x512 .f32) (bb1 : Vec Ideal S512 .f32)
    (w2 : Vec Ideal S512x1152 .f32) (bb2 : Vec Ideal S1152 .f32) (j : S1200x512.Idx) :
    k0_pay4 (F := Ideal) x0 x2 x3 w1 bb1 w2 bb2 j
      = Cert.Spec.net1row (Cert.Layer.joinRow x0 x2 x3 (j 0)) w1 bb1 w2 bb2
          ⟨640 + (j 1).val, by have h : (j 1).val < 512 := idx2_lt1 j; omega⟩ := by
  unfold k0_pay4
  refine (extractStridedSlice_apply _ _ _ j (ix2 (j 0) ⟨640 + (j 1).val, by have h : (j 1).val < 512 := idx2_lt1 j; omega⟩)
    (fun a => ?_)).trans (pay1_at ..)
  match a with
  | ⟨0, _⟩ => exact (Nat.zero_add _).symm
  | ⟨1, _⟩ => rfl

/-! ## The blocks as parts of the arrays -/

variable (V : (c : Dev nD) → (b : Ref sig .tc) → Buf (Elt Ideal) ((c : Thread nD τ).loc b))

/-- The block index maps, decided over the 125 tiles: the three edge inputs and the three outputs are at block (t, 0) at
    tile t; the weights and biases are at block zero throughout. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Tile t's block of the first edge input is rows 1200 t … 1200 t + 1199 of the array. -/
private theorem blk0_apply (c : Dev nD) (t : Fin cfg0.N) (x : S1200x128.Idx) (k : S150000x128.Idx)
    (hk0 : (k 0).val = 1200 * t.val + (x 0).val) (hk1 : (k 1).val = (x 1).val) :
    (iblk0 V c 0 t : Vec Ideal S1200x128 .f32) x = (V c main_v4 : S150000x128.Idx → EReal) k := by
  obtain ⟨e0, e1, -⟩ := idx_facts t
  unfold iblk0
  rw [View.read_apply]
  show V c main_v4 _ = V c main_v4 _
  congr 1
  funext a
  apply Fin.ext
  match a with
  | ⟨0, _⟩ => show win0_0.index t (0 : Fin 2) * 1200 + 1 * (x 0).val = (k 0).val; rw [e0, hk0]; omega
  | ⟨1, _⟩ => show win0_0.index t (1 : Fin 2) * 128 + 1 * (x 1).val = (k 1).val; rw [e1, hk1]; omega

/-- Tile t's block of the second edge input is rows 1200 t … 1200 t + 1199 of the array. -/
private theorem blk1_apply (c : Dev nD) (t : Fin cfg0.N) (x : S1200x128.Idx) (k : S150000x128.Idx)
    (hk0 : (k 0).val = 1200 * t.val + (x 0).val) (hk1 : (k 1).val = (x 1).val) :
    (iblk0 V c 1 t : Vec Ideal S1200x128 .f32) x = (V c main_arg1 : S150000x128.Idx → EReal) k := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 1200 + 1 * (x 0).val = (k 0).val; rw [e0, hk0]; omega
  | ⟨1, _⟩ => show win0_1.index t (1 : Fin 2) * 128 + 1 * (x 1).val = (k 1).val; rw [e1, hk1]; omega

/-- Tile t's block of the third edge input is rows 1200 t … 1200 t + 1199 of the array. -/
private theorem blk2_apply (c : Dev nD) (t : Fin cfg0.N) (x : S1200x128.Idx) (k : S150000x128.Idx)
    (hk0 : (k 0).val = 1200 * t.val + (x 0).val) (hk1 : (k 1).val = (x 1).val) :
    (iblk0 V c 2 t : Vec Ideal S1200x128 .f32) x = (V c main_v5 : S150000x128.Idx → EReal) k := by
  obtain ⟨-, -, -, -, e0, e1, -⟩ := idx_facts t
  unfold iblk0
  rw [View.read_apply]
  show V c main_v5 _ = V c main_v5 _
  congr 1
  funext a
  apply Fin.ext
  match a with
  | ⟨0, _⟩ => show win0_2.index t (0 : Fin 2) * 1200 + 1 * (x 0).val = (k 0).val; rw [e0, hk0]; omega
  | ⟨1, _⟩ => show win0_2.index t (1 : Fin 2) * 128 + 1 * (x 1).val = (k 1).val; rw [e1, hk1]; omega

/-- The first weight matrix is staged whole at every tile. -/
private theorem blk3_eq (c : Dev nD) (t : Fin cfg0.N) :
    (iblk0 V c 3 t : Vec Ideal S384x512 .f32) = (V c main_arg3 : S384x512.Idx → EReal) := by
  obtain ⟨-, -, -, -, -, -, e0, e1, -⟩ := idx_facts t
  funext x
  unfold iblk0
  rw [View.read_apply]
  show V c main_arg3 _ = V c main_arg3 x
  congr 1
  funext a
  apply Fin.ext
  match a with
  | ⟨0, _⟩ => show win0_3.index t (0 : Fin 2) * 384 + 1 * (x 0).val = (x 0).val; rw [e0]; omega
  | ⟨1, _⟩ => show win0_3.index t (1 : Fin 2) * 512 + 1 * (x 1).val = (x 1).val; rw [e1]; omega

/-- The first bias is staged whole at every tile. -/
private theorem blk4_eq (c : Dev nD) (t : Fin cfg0.N) :
    (iblk0 V c 4 t : Vec Ideal S512 .f32) = (V c main_arg4 : S512.Idx → EReal) := by
  obtain ⟨-, -, -, -, -, -, -, -, e0, -⟩ := idx_facts t
  funext x
  unfold iblk0
  rw [View.read_apply]
  show V c main_arg4 _ = V c main_arg4 x
  congr 1
  funext a
  apply Fin.ext
  match a with
  | ⟨0, _⟩ => show win0_4.index t (0 : Fin 1) * 512 + 1 * (x 0).val = (x 0).val; rw [e0]; omega

/-- The second weight matrix is staged whole at every tile. -/
private theorem blk5_eq (c : Dev nD) (t : Fin cfg0.N) :
    (iblk0 V c 5 t : Vec Ideal S512x1152 .f32) = (V c main_arg5 : S512x1152.Idx → EReal) := by
  obtain ⟨-, -, -, -, -, -, -, -, -, e0, e1, -⟩ := idx_facts t
  funext x
  unfold iblk0
  rw [View.read_apply]
  show V c main_arg5 _ = V c main_arg5 x
  congr 1
  funext a
  apply Fin.ext
  match a with
  | ⟨0, _⟩ => show win0_5.index t (0 : Fin 2) * 512 + 1 * (x 0).val = (x 0).val; rw [e0]; omega
  | ⟨1, _⟩ => show win0_5.index t (1 : Fin 2) * 1152 + 1 * (x 1).val = (x 1).val; rw [e1]; omega

/-- The second bias is staged whole at every tile. -/
private theorem blk6_eq (c : Dev nD) (t : Fin cfg0.N) :
    (iblk0 V c 6 t : Vec Ideal S1152 .f32) = (V c main_arg6 : S1152.Idx → EReal) := by
  obtain ⟨-, -, -, -, -, -, -, -, -, -, -, e0, -⟩ := idx_facts t
  funext x
  unfold iblk0
  rw [View.read_apply]
  show V c main_arg6 _ = V c main_arg6 x
  congr 1
  funext a
  apply Fin.ext
  match a with
  | ⟨0, _⟩ => show win0_6.index t (0 : Fin 1) * 1152 + 1 * (x 0).val = (x 0).val; rw [e0]; omega

/-- Joined rows agree when the three rows joined agree. -/
private theorem joinRow_congr {R R' : ℕ} (a b d : (⟨2, ![R, 128]⟩ : Shape).Idx → EReal)
    (a' b' d' : (⟨2, ![R', 128]⟩ : Shape).Idx → EReal) (p : Fin R) (p' : Fin R')
    (ha : ∀ u : Fin 128, a (ix2 p u) = a' (ix2 p' u)) (hb : ∀ u : Fin 128, b (ix2 p u) = b' (ix2 p' u))
    (hd : ∀ u : Fin 128, d (ix2 p u) = d' (ix2 p' u)) :
    Cert.Layer.joinRow a b d p = Cert.Layer.joinRow a' b' d' p' := by
  funext j
  unfold Cert.Layer.joinRow
  split_ifs
  · exact ha _
  · exact hb _
  · exact hd _

/-- net1 of equal rows at equal columns. -/
private theorem net1row_congr (r r' : Fin 384 → EReal) (W1 : Cert.Spec.Arr 384 512) (b1 : Cert.Spec.Vec1 512)
    (W2 : Cert.Spec.Arr 512 1152) (b2 : Cert.Spec.Vec1 1152) (q q' : Fin 1152) (hr : r = r') (hq : q.val = q'.val) :
    Cert.Spec.net1row r W1 b1 W2 b2 q = Cert.Spec.net1row r' W1 b1 W2 b2 q' := by
  subst hr
  rw [Fin.ext hq]

/-! ## From the blocks to the arrays -/

/-- What tile t writes back of the subject output is its block of the subject array of the specification: the
    payload at (y, q) is net1 of the joined row y of the three input blocks at column q, the input blocks are rows
    1200 t + y of the edge arrays, and the output block sits at rows 1200 t + y too. -/
private theorem flushed7_eq (c : Dev nD) (t : Fin cfg0.N) :
    (dat0 (F := Ideal) V c).flushed 7 t = ((cfg0.win 7).blk t).view.read (Elt Ideal)
      (Cert.Spec.subj (V c main_v4) (V c main_arg1) (V c main_v5) (V c main_arg3) (V c main_arg4) (V c main_arg5) (V c main_arg6)) := by
  show (cfg0.win 7).cut (grid0.coords t) ((dat0 V c).after 7 t) = _
  rw [after0_7]
  unfold out0_7
  rw [View.canon_unit_zero hz2]
  simp only [View.ld_unit_zero (S := S1200x128) hz2, View.ld_unit_zero (S := S384x512) hz2, View.ld_unit_zero (S := S512) hz1,
    View.ld_unit_zero (S := S512x1152) hz2, View.ld_unit_zero (S := S1152) hz1]
  obtain ⟨-, -, -, -, -, -, -, -, -, -, -, -, e0, e1, -⟩ := idx_facts t
  funext j
  show k0_pay2 (iblk0 V c 0 t) (iblk0 V c 1 t) (iblk0 V c 2 t) (iblk0 V c 3 t) (iblk0 V c 4 t) (iblk0 V c 5 t) (iblk0 V c 6 t) j
    = Cert.Spec.subj (V c main_v4) (V c main_arg1) (V c main_v5) (V c main_arg3) (V c main_arg4) (V c main_arg5) (V c main_arg6)
        (((cfg0.win 7).blk t).view.emb j)
  refine (pay2_at (iblk0 V c 0 t) (iblk0 V c 1 t) (iblk0 V c 2 t) (iblk0 V c 3 t) (iblk0 V c 4 t) (iblk0 V c 5 t) (iblk0 V c 6 t) j).trans ?_
  rw [blk3_eq V c t, blk4_eq V c t, blk5_eq V c t, blk6_eq V c t]
  unfold Cert.Spec.subj Cert.Spec.subjAt
  have h0 : ((((cfg0.win 7).blk t).view.emb j) 0).val = 1200 * t.val + (j 0).val := by
    show win0_7.index t (0 : Fin 2) * 1200 + 1 * (j 0).val = _
    rw [e0]; omega
  have h1 : (j 1).val = ((((cfg0.win 7).blk t).view.emb j) 1).val := by
    show _ = win0_7.index t (1 : Fin 2) * 512 + 1 * (j 1).val
    rw [e1]; omega
  exact net1row_congr _ _ _ _ _ _ _ _ (joinRow_congr _ _ _ _ _ _ _ _
    (fun u => blk0_apply V c t _ _ h0 rfl) (fun u => blk1_apply V c t _ _ h0 rfl) (fun u => blk2_apply V c t _ _ h0 rfl)) h1

/-- An index of the subject output is in tile t's block iff each coordinate is in the block's range on its axis. -/
private theorem mem_blk7 (t : Fin cfg0.N) (i : S150000x512.Idx) :
    i ∈ ((cfg0.win 7).blk t).view.set ↔ ∀ a : Fin 2, win0_7.index t a * S1200x512.size a ≤ (i a).val
      ∧ (i a).val < win0_7.index t a * S1200x512.size a + S1200x512.size a := by
  show i ∈ ((View.whole main_v6_0).slice (win0_7.rect t)).set ↔ _
  rw [View.set_slice_whole, Rect.mem_set_unit]
  exact Iff.rfl

/-- Row r of the subject output lies in the block of tile r / 1200, and every tile writes back: the 125 blocks tile
    the 150000 rows. -/
private theorem cover7 (i : S150000x512.Idx) :
    ∃ t : Fin cfg0.N, (cfg0.win 7).flush t = true ∧ i ∈ ((cfg0.win 7).blk t).view.set := by
  have hi0 : (i 0).val < 150000 := idx2_lt0 i
  have hi1 : (i 1).val < 512 := idx2_lt1 i
  obtain ⟨t, ht⟩ : ∃ t : Fin cfg0.N, t.val = (i 0).val / 1200 :=
    ⟨⟨(i 0).val / 1200, by rw [show cfg0.N = 125 from N_0]; omega⟩, rfl⟩
  obtain ⟨-, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 1200 ≤ (i 0).val ∧ (i 0).val < win0_7.index t (0 : Fin 2) * 1200 + 1200
    rw [e0, ht]; omega
  | ⟨1, _⟩ =>
    show win0_7.index t (1 : Fin 2) * 512 ≤ (i 1).val ∧ (i 1).val < win0_7.index t (1 : Fin 2) * 512 + 512
    rw [e1]; omega

/-- The new subject vectors. -/
theorem final0_7 (c : Dev nD) : (dat0 (F := Ideal) V c).arrAt 7 cfg0.N
    = Cert.Spec.subj (V c main_v4) (V c main_arg1) (V c main_v5) (V c main_arg3) (V c main_arg4) (V c main_arg5) (V c main_arg6) :=
  (dat0 (F := Ideal) V c).arrAt_eq_of_cover 7 _ (fun t _ => flushed7_eq V c t) cover7

/-- What tile t writes back of the predicate output is its block of the predicate array of the specification: the
    payload at (y, q) is net1 of the joined row y of the three input blocks at column 512 + q, the input blocks are rows
    1200 t + y of the edge arrays, and the output block sits at rows 1200 t + y too. -/
private theorem flushed8_eq (c : Dev nD) (t : Fin cfg0.N) :
    (dat0 (F := Ideal) V c).flushed 8 t = ((cfg0.win 8).blk t).view.read (Elt Ideal)
      (Cert.Spec.pred (V c main_v4) (V c main_arg1) (V c main_v5) (V c main_arg3) (V c main_arg4) (V c main_arg5) (V c main_arg6)) := by
  show (cfg0.win 8).cut (grid0.coords t) ((dat0 V c).after 8 t) = _
  rw [after0_8]
  unfold out0_8
  rw [View.canon_unit_zero hz2]
  simp only [View.ld_unit_zero (S := S1200x128) hz2, View.ld_unit_zero (S := S384x512) hz2, View.ld_unit_zero (S := S512) hz1,
    View.ld_unit_zero (S := S512x1152) hz2, View.ld_unit_zero (S := S1152) hz1]
  obtain ⟨-, -, -, -, -, -, -, -, -, -, -, -, -, -, e0, e1, -⟩ := idx_facts t
  funext j
  show k0_pay3 (iblk0 V c 0 t) (iblk0 V c 1 t) (iblk0 V c 2 t) (iblk0 V c 3 t) (iblk0 V c 4 t) (iblk0 V c 5 t) (iblk0 V c 6 t) j
    = Cert.Spec.pred (V c main_v4) (V c main_arg1) (V c main_v5) (V c main_arg3) (V c main_arg4) (V c main_arg5) (V c main_arg6)
        (((cfg0.win 8).blk t).view.emb j)
  refine (pay3_at (iblk0 V c 0 t) (iblk0 V c 1 t) (iblk0 V c 2 t) (iblk0 V c 3 t) (iblk0 V c 4 t) (iblk0 V c 5 t) (iblk0 V c 6 t) j).trans ?_
  rw [blk3_eq V c t, blk4_eq V c t, blk5_eq V c t, blk6_eq V c t]
  unfold Cert.Spec.pred Cert.Spec.predAt
  have h0 : ((((cfg0.win 8).blk t).view.emb j) 0).val = 1200 * t.val + (j 0).val := by
    show win0_8.index t (0 : Fin 2) * 1200 + 1 * (j 0).val = _
    rw [e0]; omega
  have h1 : 512 + (j 1).val = 512 + ((((cfg0.win 8).blk t).view.emb j) 1).val := by
    show _ = 512 + (win0_8.index t (1 : Fin 2) * 128 + 1 * (j 1).val)
    rw [e1]; omega
  exact net1row_congr _ _ _ _ _ _ _ _ (joinRow_congr _ _ _ _ _ _ _ _
    (fun u => blk0_apply V c t _ _ h0 rfl) (fun u => blk1_apply V c t _ _ h0 rfl) (fun u => blk2_apply V c t _ _ h0 rfl)) h1

/-- An index of the predicate output is in tile t's block iff each coordinate is in the block's range on its axis. -/
private theorem mem_blk8 (t : Fin cfg0.N) (i : S150000x128.Idx) :
    i ∈ ((cfg0.win 8).blk t).view.set ↔ ∀ a : Fin 2, win0_8.index t a * S1200x128.size a ≤ (i a).val
      ∧ (i a).val < win0_8.index t a * S1200x128.size a + S1200x128.size a := by
  show i ∈ ((View.whole main_v6_1).slice (win0_8.rect t)).set ↔ _
  rw [View.set_slice_whole, Rect.mem_set_unit]
  exact Iff.rfl

/-- Row r of the predicate output lies in the block of tile r / 1200, and every tile writes back: the 125 blocks tile
    the 150000 rows. -/
private theorem cover8 (i : S150000x128.Idx) :
    ∃ t : Fin cfg0.N, (cfg0.win 8).flush t = true ∧ i ∈ ((cfg0.win 8).blk t).view.set := by
  have hi0 : (i 0).val < 150000 := idx2_lt0 i
  have hi1 : (i 1).val < 128 := idx2_lt1 i
  obtain ⟨t, ht⟩ : ∃ t : Fin cfg0.N, t.val = (i 0).val / 1200 :=
    ⟨⟨(i 0).val / 1200, by rw [show cfg0.N = 125 from N_0]; omega⟩, rfl⟩
  obtain ⟨-, -, -, -, -, -, -, -, -, -, -, -, -, -, e0, e1, -⟩ := idx_facts t
  refine ⟨t, flush0_8 t, ?_⟩
  rw [mem_blk8]
  intro a
  match a with
  | ⟨0, _⟩ =>
    show win0_8.index t (0 : Fin 2) * 1200 ≤ (i 0).val ∧ (i 0).val < win0_8.index t (0 : Fin 2) * 1200 + 1200
    rw [e0, ht]; omega
  | ⟨1, _⟩ =>
    show win0_8.index t (1 : Fin 2) * 128 ≤ (i 1).val ∧ (i 1).val < win0_8.index t (1 : Fin 2) * 128 + 128
    rw [e1]; omega

/-- The new predicate vectors. -/
theorem final0_8 (c : Dev nD) : (dat0 (F := Ideal) V c).arrAt 8 cfg0.N
    = Cert.Spec.pred (V c main_v4) (V c main_arg1) (V c main_v5) (V c main_arg3) (V c main_arg4) (V c main_arg5) (V c main_arg6) :=
  (dat0 (F := Ideal) V c).arrAt_eq_of_cover 8 _ (fun t _ => flushed8_eq V c t) cover8

/-- What tile t writes back of the object output is its block of the object array of the specification: the
    payload at (y, q) is net1 of the joined row y of the three input blocks at column 640 + q, the input blocks are rows
    1200 t + y of the edge arrays, and the output block sits at rows 1200 t + y too. -/
private theorem flushed9_eq (c : Dev nD) (t : Fin cfg0.N) :
    (dat0 (F := Ideal) V c).flushed 9 t = ((cfg0.win 9).blk t).view.read (Elt Ideal)
      (Cert.Spec.obj (V c main_v4) (V c main_arg1) (V c main_v5) (V c main_arg3) (V c main_arg4) (V c main_arg5) (V c main_arg6)) := by
  show (cfg0.win 9).cut (grid0.coords t) ((dat0 V c).after 9 t) = _
  rw [after0_9]
  unfold out0_9
  rw [View.canon_unit_zero hz2]
  simp only [View.ld_unit_zero (S := S1200x128) hz2, View.ld_unit_zero (S := S384x512) hz2, View.ld_unit_zero (S := S512) hz1,
    View.ld_unit_zero (S := S512x1152) hz2, View.ld_unit_zero (S := S1152) hz1]
  obtain ⟨-, -, -, -, -, -, -, -, -, -, -, -, -, -, -, -, e0, e1⟩ := idx_facts t
  funext j
  show k0_pay4 (iblk0 V c 0 t) (iblk0 V c 1 t) (iblk0 V c 2 t) (iblk0 V c 3 t) (iblk0 V c 4 t) (iblk0 V c 5 t) (iblk0 V c 6 t) j
    = Cert.Spec.obj (V c main_v4) (V c main_arg1) (V c main_v5) (V c main_arg3) (V c main_arg4) (V c main_arg5) (V c main_arg6)
        (((cfg0.win 9).blk t).view.emb j)
  refine (pay4_at (iblk0 V c 0 t) (iblk0 V c 1 t) (iblk0 V c 2 t) (iblk0 V c 3 t) (iblk0 V c 4 t) (iblk0 V c 5 t) (iblk0 V c 6 t) j).trans ?_
  rw [blk3_eq V c t, blk4_eq V c t, blk5_eq V c t, blk6_eq V c t]
  unfold Cert.Spec.obj Cert.Spec.objAt
  have h0 : ((((cfg0.win 9).blk t).view.emb j) 0).val = 1200 * t.val + (j 0).val := by
    show win0_9.index t (0 : Fin 2) * 1200 + 1 * (j 0).val = _
    rw [e0]; omega
  have h1 : 640 + (j 1).val = 640 + ((((cfg0.win 9).blk t).view.emb j) 1).val := by
    show _ = 640 + (win0_9.index t (1 : Fin 2) * 512 + 1 * (j 1).val)
    rw [e1]; omega
  exact net1row_congr _ _ _ _ _ _ _ _ (joinRow_congr _ _ _ _ _ _ _ _
    (fun u => blk0_apply V c t _ _ h0 rfl) (fun u => blk1_apply V c t _ _ h0 rfl) (fun u => blk2_apply V c t _ _ h0 rfl)) h1

/-- An index of the object output is in tile t's block iff each coordinate is in the block's range on its axis. -/
private theorem mem_blk9 (t : Fin cfg0.N) (i : S150000x512.Idx) :
    i ∈ ((cfg0.win 9).blk t).view.set ↔ ∀ a : Fin 2, win0_9.index t a * S1200x512.size a ≤ (i a).val
      ∧ (i a).val < win0_9.index t a * S1200x512.size a + S1200x512.size a := by
  show i ∈ ((View.whole main_v6_2).slice (win0_9.rect t)).set ↔ _
  rw [View.set_slice_whole, Rect.mem_set_unit]
  exact Iff.rfl

/-- Row r of the object output lies in the block of tile r / 1200, and every tile writes back: the 125 blocks tile
    the 150000 rows. -/
private theorem cover9 (i : S150000x512.Idx) :
    ∃ t : Fin cfg0.N, (cfg0.win 9).flush t = true ∧ i ∈ ((cfg0.win 9).blk t).view.set := by
  have hi0 : (i 0).val < 150000 := idx2_lt0 i
  have hi1 : (i 1).val < 512 := idx2_lt1 i
  obtain ⟨t, ht⟩ : ∃ t : Fin cfg0.N, t.val = (i 0).val / 1200 :=
    ⟨⟨(i 0).val / 1200, by rw [show cfg0.N = 125 from N_0]; omega⟩, rfl⟩
  obtain ⟨-, -, -, -, -, -, -, -, -, -, -, -, -, -, -, -, e0, e1⟩ := idx_facts t
  refine ⟨t, flush0_9 t, ?_⟩
  rw [mem_blk9]
  intro a
  match a with
  | ⟨0, _⟩ =>
    show win0_9.index t (0 : Fin 2) * 1200 ≤ (i 0).val ∧ (i 0).val < win0_9.index t (0 : Fin 2) * 1200 + 1200
    rw [e0, ht]; omega
  | ⟨1, _⟩ =>
    show win0_9.index t (1 : Fin 2) * 512 ≤ (i 1).val ∧ (i 1).val < win0_9.index t (1 : Fin 2) * 512 + 512
    rw [e1]; omega

/-- The new object vectors. -/
theorem final0_9 (c : Dev nD) : (dat0 (F := Ideal) V c).arrAt 9 cfg0.N
    = Cert.Spec.obj (V c main_v4) (V c main_arg1) (V c main_v5) (V c main_arg3) (V c main_arg4) (V c main_arg5) (V c main_arg6) :=
  (dat0 (F := Ideal) V c).arrAt_eq_of_cover 9 _ (fun t _ => flushed9_eq V c t) cover9

end Cert.KernelIdeal.R0

end
-- ==== Proof.Region1.lean ====
/-
  REGION 1 (net2 over 25 tiles of 2000 objects): what its output array holds when it ends, as a function of the
  arrays it found when it was entered.
-/
import proofs.«414812_j7894149890339_2_alg».proof.Proof.Gen.KernelIdeal.Frame
import proofs.«414812_j7894149890339_2_alg».proof.Proof.Spec

set_option maxRecDepth 16384

noncomputable section

namespace Cert.KernelIdeal.R1

open Idealize.ShloMosaic Idealize.ShloMosaic.TcCoe Idealize.ShloMosaic.ValueIdx Idealize.SL.Sem
open Cert.KernelIdeal Cert.KernelIdeal.Gen

/-- One tile's result at (y, q) is net2 of row y of the tile: the second layer's row is the first layer's
    output row, column by column. -/
private theorem pay_at (x0 : Vec Ideal S2000x512 .f32) (w3 : Vec Ideal S512x512 .f32) (bb3 : Vec Ideal S512 .f32)
    (w4 : Vec Ideal S512x128 .f32) (bb4 : Vec Ideal S128 .f32) (y : Fin 2000) (q : Fin 128) :
    k1_pay1 (F := Ideal) x0 w3 bb3 w4 bb4 (ix2 y q) = Cert.Spec.net2row (fun k => x0 (ix2 y k)) w3 bb3 w4 bb4 q := by
  unfold k1_pay1
  rw [shapeCast_self]
  unfold Cert.Spec.net2row
  rw [Cert.Layer.block_layer_at dot_S2000x512_S512x128_S2000x128_1_0_0_1_n_n rfl rfl rfl rfl rfl rfl rfl rfl
    _ w4 bb4 bitsLt_bf16_f32 shapeCasts_S128_S1x128 broadcasts_S1x128_S2000x128 y q]
  congr 1
  funext k
  exact Cert.Layer.block_layer_at dot_S2000x512_S512x512_S2000x512_1_0_0_1_n_n rfl rfl rfl rfl rfl rfl rfl rfl
    x0 w3 bb3 bitsLt_bf16_f32 shapeCasts_S512_S1x512 broadcasts_S1x512_S2000x512 y k

private theorem zero2 : (![0, 0] : Fin 2 → Nat) = fun _ => 0 := funext fun a => by fin_cases a <;> rfl
private theorem zero1 : (![0] : Fin 1 → Nat) = fun _ => 0 := funext fun a => by fin_cases a <;> rfl

/-- The block index maps at every tile: the pooled rows and the output move with the tile number along the rows
    and stay at zero along the columns; the weights and biases stay at block zero. -/
private theorem tile_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What tile t writes back is tile t of the new object features: each weight and bias block is its whole array
    (block zero, of the array's size), and row y of the tile's pooled block is row t * 2000 + y of the pooled
    array, which is also the row of the output that (t, y) lands on. -/
private theorem tile_eq (c : Dev nD) (t : Fin cfg1.N) :
    (dat1 (F := Ideal) V c).flushed 5 t = ((cfg1.win 5).blk t).view.read (Elt Ideal)
      (Cert.Spec.newThings (V c main_v26) (V c main_arg7) (V c main_arg8) (V c main_arg9) (V c main_arg10)) := by
  show (cfg1.win 5).cut (grid1.coords t) ((dat1 V c).after 5 t) = _
  rw [after1_5]
  unfold out1_5
  rw [View.canon_unit_zero zero2]
  simp only [View.ld_unit_zero (S := S2000x512) zero2, View.ld_unit_zero (S := S512x512) zero2,
    View.ld_unit_zero (S := S512) zero1, View.ld_unit_zero (S := S512x128) zero2, View.ld_unit_zero (S := S128) zero1]
  obtain ⟨e00, e01, e10, e11, e20, e30, e31, e40, e50, e51⟩ := tile_index t
  have h1 : iblk1 V c 1 t = V c main_arg7 := by
    funext y
    show V c main_arg7 (((cfg1.win 1).blk t).view.emb y) = V c main_arg7 y
    refine congrArg _ (funext fun a => Fin.ext ?_)
    match a with
    | ⟨0, _⟩ => show win1_1.index t (0 : Fin 2) * 512 + 1 * (y 0).val = (y 0).val; omega
    | ⟨1, _⟩ => show win1_1.index t (1 : Fin 2) * 512 + 1 * (y 1).val = (y 1).val; omega
  have h2 : iblk1 V c 2 t = V c main_arg8 := by
    funext y
    show V c main_arg8 (((cfg1.win 2).blk t).view.emb y) = V c main_arg8 y
    refine congrArg _ (funext fun a => Fin.ext ?_)
    match a with
    | ⟨0, _⟩ => show win1_2.index t (0 : Fin 1) * 512 + 1 * (y 0).val = (y 0).val; omega
  have h3 : iblk1 V c 3 t = V c main_arg9 := by
    funext y
    show V c main_arg9 (((cfg1.win 3).blk t).view.emb y) = V c main_arg9 y
    refine congrArg _ (funext fun a => Fin.ext ?_)
    match a with
    | ⟨0, _⟩ => show win1_3.index t (0 : Fin 2) * 512 + 1 * (y 0).val = (y 0).val; omega
    | ⟨1, _⟩ => show win1_3.index t (1 : Fin 2) * 128 + 1 * (y 1).val = (y 1).val; omega
  have h4 : iblk1 V c 4 t = V c main_arg10 := by
    funext y
    show V c main_arg10 (((cfg1.win 4).blk t).view.emb y) = V c main_arg10 y
    refine congrArg _ (funext fun a => Fin.ext ?_)
    match a with
    | ⟨0, _⟩ => show win1_4.index t (0 : Fin 1) * 128 + 1 * (y 0).val = (y 0).val; omega
  rw [h1, h2, h3, h4]
  funext j
  show k1_pay1 (F := Ideal) (iblk1 V c 0 t) (V c main_arg7) (V c main_arg8) (V c main_arg9) (V c main_arg10) j
    = Cert.Spec.newThings (V c main_v26) (V c main_arg7) (V c main_arg8) (V c main_arg9) (V c main_arg10)
        (((cfg1.win 5).blk t).view.emb j)
  refine (congrArg _ (eq_ix2 j)).trans ?_
  refine (pay_at _ _ _ _ _ (j 0) (j 1)).trans ?_
  unfold Cert.Spec.newThings
  have hcol : ((cfg1.win 5).blk t).view.emb j 1 = j 1 :=
    Fin.ext (by show win1_5.index t (1 : Fin 2) * 128 + 1 * (j 1).val = (j 1).val; omega)
  have hrow : (fun k => iblk1 V c 0 t (ix2 (j 0) k))
      = (fun k => V c main_v26 (ix2 (((cfg1.win 5).blk t).view.emb j 0) k)) := by
    funext k
    show V c main_v26 (((cfg1.win 0).blk t).view.emb (ix2 (j 0) k))
      = V c main_v26 (ix2 (((cfg1.win 5).blk t).view.emb j 0) k)
    refine congrArg _ (funext fun a => Fin.ext ?_)
    match a with
    | ⟨0, _⟩ =>
      show win1_0.index t (0 : Fin 2) * 2000 + 1 * (j 0).val = win1_5.index t (0 : Fin 2) * 2000 + 1 * (j 0).val
      omega
    | ⟨1, _⟩ => show win1_0.index t (1 : Fin 2) * 512 + 1 * k.val = k.val; omega
  rw [hrow, hcol]

/-- An index of the output array is in tile t's block iff each coordinate is in the block's range on its axis. -/
private theorem mem_tile (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v27).slice (win1_5.rect t)).set ↔ _
  rw [View.set_slice_whole, Rect.mem_set_unit]
  exact Iff.rfl

/-- Every index of the output array is in some tile: row r is in tile r / 2000, and 25 tiles of 2000 rows are the
    50000 rows; each tile spans all 128 columns. -/
private theorem tiles_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < 25; omega⟩, rfl⟩
  obtain ⟨-, -, -, -, -, -, -, -, e50, e51⟩ := tile_index t
  refine ⟨t, flush1_5 t, ?_⟩
  rw [mem_tile]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The new object features. -/
theorem final1_5 (c : Dev nD) : (dat1 (F := Ideal) V c).arrAt 5 cfg1.N
    = Cert.Spec.newThings (V c main_v26) (V c main_arg7) (V c main_arg8) (V c main_arg9) (V c main_arg10) :=
  (dat1 (F := Ideal) V c).arrAt_eq_of_cover 5 _ (fun t _ => tile_eq V c t) tiles_cover

end Cert.KernelIdeal.R1

end
-- ==== Proof.KValue.lean ====
/-
  THE KERNEL PROGRAM'S TWO RESULTS as functions of the argument arrays: the new object features are net2, row by
  row, of the pooled array of net1's subject and object outputs; the new predicate vectors are net1's predicate
  outputs; net1 reads the takes of the feature table's rows at the subjects and at the objects.
-/
import proofs.«414812_j7894149890339_2_alg».proof.Proof.KHost
import proofs.«414812_j7894149890339_2_alg».proof.Proof.Region0
import proofs.«414812_j7894149890339_2_alg».proof.Proof.Region1

set_option maxRecDepth 16384

noncomputable section

namespace Cert.KernelIdeal.KValue

open Idealize.ShloMosaic Idealize.ShloMosaic.TcCoe Idealize.SL.Sem
open Cert.KernelIdeal Cert.KernelIdeal.Gen Cert.KernelIdeal.KHost

variable (m : (ℓ : Loc nD τ sig) → Buf (Elt Ideal) ℓ) (ρ : Dev nD → PrngReg)

/-- Region 0's subject output. -/
theorem subj_eq (c : Dev nD) : W4 m ρ c (Proc.devRef .tc main_v6_0) = Cert.Spec.subj (take (m ((c : Thread nD τ).loc main_arg0)) (col0 (m ((c : Thread nD τ).loc main_arg2)))) (m ((c : Thread nD τ).loc main_arg1)) (take (m ((c : Thread nD τ).loc main_arg0)) (col1 (m ((c : Thread nD τ).loc main_arg2)))) (m ((c : Thread nD τ).loc main_arg3)) (m ((c : Thread nD τ).loc main_arg4)) (m ((c : Thread nD τ).loc main_arg5)) (m ((c : Thread nD τ).loc main_arg6)) := by
  have h4 : V3 m ρ c main_v4 = _ := W3_v4 m ρ c
  have h5 : V3 m ρ c main_v5 = _ := W3_v5 m ρ c
  have a1 : V3 m ρ c main_arg1 = _ := W3_arg1 m ρ c
  have a3 : V3 m ρ c main_arg3 = _ := W3_arg3 m ρ c
  have a4 : V3 m ρ c main_arg4 = _ := W3_arg4 m ρ c
  have a5 : V3 m ρ c main_arg5 = _ := W3_arg5 m ρ c
  have a6 : V3 m ρ c main_arg6 = _ := W3_arg6 m ρ c
  rw [W4_v6_0, Cert.KernelIdeal.R0.final0_7 (V3 m ρ) c, h4, a1, h5, a3, a4, a5, a6]

/-- Region 0's object output. -/
theorem obj_eq (c : Dev nD) : W4 m ρ c (Proc.devRef .tc main_v6_2) = Cert.Spec.obj (take (m ((c : Thread nD τ).loc main_arg0)) (col0 (m ((c : Thread nD τ).loc main_arg2)))) (m ((c : Thread nD τ).loc main_arg1)) (take (m ((c : Thread nD τ).loc main_arg0)) (col1 (m ((c : Thread nD τ).loc main_arg2)))) (m ((c : Thread nD τ).loc main_arg3)) (m ((c : Thread nD τ).loc main_arg4)) (m ((c : Thread nD τ).loc main_arg5)) (m ((c : Thread nD τ).loc main_arg6)) := by
  have h4 : V3 m ρ c main_v4 = _ := W3_v4 m ρ c
  have h5 : V3 m ρ c main_v5 = _ := W3_v5 m ρ c
  have a1 : V3 m ρ c main_arg1 = _ := W3_arg1 m ρ c
  have a3 : V3 m ρ c main_arg3 = _ := W3_arg3 m ρ c
  have a4 : V3 m ρ c main_arg4 = _ := W3_arg4 m ρ c
  have a5 : V3 m ρ c main_arg5 = _ := W3_arg5 m ρ c
  have a6 : V3 m ρ c main_arg6 = _ := W3_arg6 m ρ c
  rw [W4_v6_2, Cert.KernelIdeal.R0.final0_9 (V3 m ρ) c, h4, a1, h5, a3, a4, a5, a6]

/-- The new predicate vectors. -/
theorem pred_eq (c : Dev nD) : W6 m ρ c (Proc.devRef .tc main_v6_1) = Cert.Spec.pred (take (m ((c : Thread nD τ).loc main_arg0)) (col0 (m ((c : Thread nD τ).loc main_arg2)))) (m ((c : Thread nD τ).loc main_arg1)) (take (m ((c : Thread nD τ).loc main_arg0)) (col1 (m ((c : Thread nD τ).loc main_arg2)))) (m ((c : Thread nD τ).loc main_arg3)) (m ((c : Thread nD τ).loc main_arg4)) (m ((c : Thread nD τ).loc main_arg5)) (m ((c : Thread nD τ).loc main_arg6)) := by
  have h4 : V3 m ρ c main_v4 = _ := W3_v4 m ρ c
  have h5 : V3 m ρ c main_v5 = _ := W3_v5 m ρ c
  have a1 : V3 m ρ c main_arg1 = _ := W3_arg1 m ρ c
  have a3 : V3 m ρ c main_arg3 = _ := W3_arg3 m ρ c
  have a4 : V3 m ρ c main_arg4 = _ := W3_arg4 m ρ c
  have a5 : V3 m ρ c main_arg5 = _ := W3_arg5 m ρ c
  have a6 : V3 m ρ c main_arg6 = _ := W3_arg6 m ρ c
  rw [W6_v6_1, Cert.KernelIdeal.R0.final0_8 (V3 m ρ) c, h4, a1, h5, a3, a4, a5, a6]

/-- The new object features. -/
theorem things_eq (c : Dev nD) : W6 m ρ c (Proc.devRef .tc main_v27)
    = Cert.Spec.newThings (pool (Cert.Spec.subj (take (m ((c : Thread nD τ).loc main_arg0)) (col0 (m ((c : Thread nD τ).loc main_arg2)))) (m ((c : Thread nD τ).loc main_arg1)) (take (m ((c : Thread nD τ).loc main_arg0)) (col1 (m ((c : Thread nD τ).loc main_arg2)))) (m ((c : Thread nD τ).loc main_arg3)) (m ((c : Thread nD τ).loc main_arg4)) (m ((c : Thread nD τ).loc main_arg5)) (m ((c : Thread nD τ).loc main_arg6))) (Cert.Spec.obj (take (m ((c : Thread nD τ).loc main_arg0)) (col0 (m ((c : Thread nD τ).loc main_arg2)))) (m ((c : Thread nD τ).loc main_arg1)) (take (m ((c : Thread nD τ).loc main_arg0)) (col1 (m ((c : Thread nD τ).loc main_arg2)))) (m ((c : Thread nD τ).loc main_arg3)) (m ((c : Thread nD τ).loc main_arg4)) (m ((c : Thread nD τ).loc main_arg5)) (m ((c : Thread nD τ).loc main_arg6))) (m ((c : Thread nD τ).loc main_arg2)))
        (m ((c : Thread nD τ).loc main_arg7)) (m ((c : Thread nD τ).loc main_arg8)) (m ((c : Thread nD τ).loc main_arg9)) (m ((c : Thread nD τ).loc main_arg10)) := by
  have h26 : V5 m ρ c main_v26 = _ := W5_v26 m ρ c
  have a7 : V5 m ρ c main_arg7 = _ := W5_arg7 m ρ c
  have a8 : V5 m ρ c main_arg8 = _ := W5_arg8 m ρ c
  have a9 : V5 m ρ c main_arg9 = _ := W5_arg9 m ρ c
  have a10 : V5 m ρ c main_arg10 = _ := W5_arg10 m ρ c
  rw [W6_v27, Cert.KernelIdeal.R1.final1_5 (V5 m ρ) c, h26, a7, a8, a9, a10, subj_eq, obj_eq]

end Cert.KernelIdeal.KValue

end
-- ==== Proof.Cross.lean ====
/-
  THE TWO PROGRAMS SHARE THEIR HOST OPERATIONS: the kernel program's plain gather of the feature table's rows at the
  wrapped subject (object) indices is the reference's gather, and the reference's pooled array is the kernel
  program's pooling of the reference's own subject and object vectors. Both by unfolding: the same operations on the
  same operands, the dimension records equal field by field.
-/
import proofs.«414812_j7894149890339_2_alg».proof.Proof.KDefs
import proofs.«414812_j7894149890339_2_alg».proof.Proof.Gen.ReferenceIdeal.Read

set_option maxRecDepth 16384

noncomputable section

namespace Cert.Cross

open Idealize.ShloMosaic
open Cert.ReferenceIdeal.Read

variable (x0 : (⟨Cert.ReferenceIdeal.S50000x128, .f32⟩ : BufTy).Contents (Elt Ideal)) (x1 : (⟨Cert.ReferenceIdeal.S150000x128, .f32⟩ : BufTy).Contents (Elt Ideal))
  (x2 : (⟨Cert.ReferenceIdeal.S150000x2, .i32⟩ : BufTy).Contents (Elt Ideal)) (x3 : (⟨Cert.ReferenceIdeal.S384x512, .f32⟩ : BufTy).Contents (Elt Ideal))
  (x4 : (⟨Cert.ReferenceIdeal.S512, .f32⟩ : BufTy).Contents (Elt Ideal)) (x5 : (⟨Cert.ReferenceIdeal.S512x1152, .f32⟩ : BufTy).Contents (Elt Ideal))
  (x6 : (⟨Cert.ReferenceIdeal.S1152, .f32⟩ : BufTy).Contents (Elt Ideal))

/-- The gather at the subjects. -/
theorem rawTake0_eq : Cert.KernelIdeal.KHost.rawTake (F := Ideal) x0 (Cert.KernelIdeal.KHost.wrapCol (Cert.KernelIdeal.KHost.col0 x2))
    = val_main_v10 x0 x2 := rfl

/-- The gather at the objects. -/
theorem rawTake1_eq : Cert.KernelIdeal.KHost.rawTake (F := Ideal) x0 (Cert.KernelIdeal.KHost.wrapCol (Cert.KernelIdeal.KHost.col1 x2))
    = val_main_v17 x0 x2 := rfl

/-- The pooled array. -/
theorem pool_eq : val_main_v51 x0 x1 x2 x3 x4 x5 x6
    = Cert.KernelIdeal.KHost.pool (F := Ideal) (val_main_v29 x0 x1 x2 x3 x4 x5 x6) (val_main_v31 x0 x1 x2 x3 x4 x5 x6) x2 := rfl

end Cert.Cross

end
-- ==== Proof.EdgeRange.lean ====
/-
  THE EDGE LIST'S RANGE, and what it does to the row takes.

  The precondition's last conjunct says every entry of the edge list is a row number of the feature table:
  0 ≤ e < 50000 as signed words. Under it the take's wrap changes nothing (no entry is negative), every row's index is
  in 0 … 49999, so the take's mask is one everywhere and the take is the plain gather of the rows.
-/
import proofs.«414812_j7894149890339_2_alg».proof.Proof.KDefs
import proofs.«414812_j7894149890339_2_alg».proof.Pre_finite_inputs
import proofs.«414812_j7894149890339_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

set_option maxRecDepth 16384

noncomputable section

namespace Cert.EdgeRange

open Idealize.ShloMosaic Idealize.ShloMosaic.ValueIdx
open Cert.KernelIdeal Cert.KernelIdeal.KHost

/-- Every entry of the edge list is a row number of the feature table, as signed words. -/
def InRange (x2 : (⟨2, ![150000, 2]⟩ : Shape).Idx → BitVec 32) : Prop :=
  ∀ i, IntOp.cmpi .sge (x2 i) 0#32 = 1#1 ∧ IntOp.cmpi .slt (x2 i) 50000#32 = 1#1

/-! ## Words -/

/-- A signed word e with 0 ≤ e < 50000 is not below 0, and is at most 49999. -/
private theorem word_range (e : BitVec 32) (h0 : IntOp.cmpi .sge e 0#32 = 1#1) (h1 : IntOp.cmpi .slt e 50000#32 = 1#1) :
    IntOp.cmpi .slt e 0#32 = 0#1 ∧ IntOp.cmpi .sle e 49999#32 = 1#1 := by
  have z0 : (0#32 : BitVec 32).toInt = 0 := by decide
  have z1 : (50000#32 : BitVec 32).toInt = 50000 := by decide
  have z2 : (49999#32 : BitVec 32).toInt = 49999 := by decide
  have a0 := IntOp.cmpi_sge.1 h0
  have a1 := IntOp.cmpi_slt.1 h1
  rw [z0] at a0
  rw [z1] at a1
  refine ⟨eq_zero_of_ne_one fun hc => ?_, IntOp.cmpi_sle.2 ?_⟩
  · have a2 := IntOp.cmpi_slt.1 hc
    rw [z0] at a2
    omega
  · rw [z2]
    omega

/-- A run of "and" over words that are all 1, started at 1, ends at 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-! ## The precondition's last conjunct -/

/-- The precondition gives the range. -/
theorem inRange_of_pre
    (x0 : FVec Ideal Cert.Pre_finite_inputs.S50000x128 .f32) (x1 : FVec Ideal Cert.Pre_finite_inputs.S150000x128 .f32)
    (x2 : IVec Cert.Pre_finite_inputs.S150000x2 32) (x3 : FVec Ideal Cert.Pre_finite_inputs.S384x512 .f32)
    (x4 : FVec Ideal Cert.Pre_finite_inputs.S512 .f32) (x5 : FVec Ideal Cert.Pre_finite_inputs.S512x1152 .f32)
    (x6 : FVec Ideal Cert.Pre_finite_inputs.S1152 .f32) (x7 : FVec Ideal Cert.Pre_finite_inputs.S512x512 .f32)
    (x8 : FVec Ideal Cert.Pre_finite_inputs.S512 .f32) (x9 : FVec Ideal Cert.Pre_finite_inputs.S512x128 .f32)
    (x10 : FVec Ideal Cert.Pre_finite_inputs.S128 .f32)
    (h : Cert.Pre_finite_inputs.fn (F := Ideal) x0 x1 x2 x3 x4 x5 x6 x7 x8 x9 x10 = fun _ => 1#1) : InRange x2 := by
  have h0 := congrFun h ValueIdx.ix0
  unfold Cert.Pre_finite_inputs.fn Cert.Pre_finite_inputs.fn_part1 Cert.Pre_finite_inputs.fn_part2
    Cert.Pre_finite_inputs.fn_part3 at h0
  dsimp only at h0
  -- the whole predicate is an "and" whose last operand is the edge list's conjunct
  have h1 := (IntOp.andi_eq_one.1 h0).2
  intro i
  -- the conjunct is an "and" over all entries, into a result with a single index: it holds at entry i
  haveI : Subsingleton Cert.Pre_finite_inputs.S_.Idx := ⟨fun a b => funext fun d => d.elim0⟩
  have h2 := Host.reduce_andi_all _ _ _ _ _ h1 i
  exact IntOp.andi_eq_one.1 h2

/-! ## The takes -/

/-- A column of the edge list is made of entries of the edge list. -/
private theorem col0_apply (x2 : (⟨S150000x2, .i32⟩ : BufTy).Contents (Elt Ideal)) (k : S150000.Idx) :
    ∃ m, col0 (F := Ideal) x2 k = x2 m := ⟨_, rfl⟩
private theorem col1_apply (x2 : (⟨S150000x2, .i32⟩ : BufTy).Contents (Elt Ideal)) (k : S150000.Idx) :
    ∃ m, col1 (F := Ideal) x2 k = x2 m := ⟨_, rfl⟩

/-- The wrapped index column read at a row: the vector's entry there, with 50000 added if it is negative. -/
private theorem wrapCol_apply (s : (⟨S150000, .i32⟩ : BufTy).Contents (Elt Ideal)) (k : S150000x1.Idx) :
    ∃ k', wrapCol (F := Ideal) s k
      = Scalar.select (IntOp.cmpi .slt (s k') 0#32) (IntOp.addi (s k') 50000#32) (s k') := ⟨_, rfl⟩

/-- Where every entry of an index vector is in 0 … 49999, the mask of its wrapped column is 1 everywhere. -/
private theorem inRange_wrapCol (s : (⟨S150000, .i32⟩ : BufTy).Contents (Elt Ideal))
    (hs : ∀ k, IntOp.cmpi .sge (s k) 0#32 = 1#1 ∧ IntOp.cmpi .slt (s k) 50000#32 = 1#1) (i : S150000x128.Idx) :
    inRange (F := Ideal) (wrapCol s) i = 1#1 := by
  unfold inRange broadcastInDim
  rw [Host.reduce_eq_foldl]
  refine foldl_andi_ones _ (fun n => ?_) _
  obtain ⟨k', hk'⟩ := wrapCol_apply s n
  obtain ⟨b0, b1⟩ := word_range (s k') (hs k').1 (hs k').2
  have hw : wrapCol (F := Ideal) s n = s k' := by rw [hk', b0]; exact select_zero _ _
  show IntOp.andi (IntOp.cmpi .sge (wrapCol (F := Ideal) s n) 0#32) (IntOp.cmpi .sle (wrapCol (F := Ideal) s n) 49999#32) = 1#1
  rw [hw, (hs k').1, b1]
  decide

/-- Under the range the take at the subjects is the plain gather. -/
theorem take_col0 (x0 : (⟨S50000x128, .f32⟩ : BufTy).Contents (Elt Ideal)) (x2 : (⟨S150000x2, .i32⟩ : BufTy).Contents (Elt Ideal))
    (h : InRange x2) : take (F := Ideal) x0 (col0 x2) = rawTake x0 (wrapCol (col0 x2)) := by
  unfold take
  funext i
  rw [select_apply, inRange_wrapCol (col0 x2) (fun k => by obtain ⟨m, hm⟩ := col0_apply x2 k; rw [hm]; exact h m) i]
  exact select_one _ _

/-- Under the range the take at the objects is the plain gather. -/
theorem take_col1 (x0 : (⟨S50000x128, .f32⟩ : BufTy).Contents (Elt Ideal)) (x2 : (⟨S150000x2, .i32⟩ : BufTy).Contents (Elt Ideal))
    (h : InRange x2) : take (F := Ideal) x0 (col1 x2) = rawTake x0 (wrapCol (col1 x2)) := by
  unfold take
  funext i
  rw [select_apply, inRange_wrapCol (col1 x2) (fun k => by obtain ⟨m, hm⟩ := col1_apply x2 k; rw [hm]; exact h m) i]
  exact select_one _ _

end Cert.EdgeRange

end
-- ==== Proof.RefSide.lean ====
/-
  THE REFERENCE, stage by stage, against the row-level functions: its three slices of net1's output and its net2.

  The joined array read at (p, j) is the joined row p at j. The reference's hidden array of net1 is one dense layer
  of each joined row, so as a function it is i ↦ layer (joined row (i 0)) W1 b1 (i 1); the second layer reads row p
  of that function, which is the first layer of the joined row p, so net1's output at (p, q) is net1row of the joined
  row p at q. A column slice at offset o reads column o + q. net2 is the same two steps on the pooled array.
-/
import proofs.«414812_j7894149890339_2_alg».proof.Proof.Gen.ReferenceIdeal.Read
import proofs.«414812_j7894149890339_2_alg».proof.Proof.Spec

noncomputable section

namespace Cert.ReferenceIdeal.RefSide

open Idealize.ShloMosaic Idealize.ShloMosaic.TcCoe Idealize.ShloMosaic.ValueIdx Idealize.SL.Sem
open Cert.ReferenceIdeal Cert.ReferenceIdeal.Gen Cert.ReferenceIdeal.Read

variable (x0 : (⟨S50000x128, .f32⟩ : BufTy).Contents (Elt Ideal)) (x1 : (⟨S150000x128, .f32⟩ : BufTy).Contents (Elt Ideal))
  (x2 : (⟨S150000x2, .i32⟩ : BufTy).Contents (Elt Ideal)) (x3 : (⟨S384x512, .f32⟩ : BufTy).Contents (Elt Ideal))
  (x4 : (⟨S512, .f32⟩ : BufTy).Contents (Elt Ideal)) (x5 : (⟨S512x1152, .f32⟩ : BufTy).Contents (Elt Ideal))
  (x6 : (⟨S1152, .f32⟩ : BufTy).Contents (Elt Ideal)) (x7 : (⟨S512x512, .f32⟩ : BufTy).Contents (Elt Ideal))
  (x8 : (⟨S512, .f32⟩ : BufTy).Contents (Elt Ideal)) (x9 : (⟨S512x128, .f32⟩ : BufTy).Contents (Elt Ideal))
  (x10 : (⟨S128, .f32⟩ : BufTy).Contents (Elt Ideal))

/-- The joined array at (p, j) is the joined row p at j. -/
private theorem joined_at (p : Fin 150000) (j : Fin 384) :
    val_main_v18 x0 x1 x2 (ix2 p j)
      = Cert.Layer.joinRow (val_main_v10 x0 x2) x1 (val_main_v17 x0 x2) p j := by
  unfold val_main_v18
  exact Cert.Layer.join3_at _ _ _ _ p j

/-- net1's hidden array as a function: the first layer of each joined row. -/
private theorem hidden1_eq : val_main_v23 x0 x1 x2 x3 x4
    = fun i => Cert.Layer.layer (Cert.Layer.joinRow (val_main_v10 x0 x2) x1 (val_main_v17 x0 x2) (i 0)) x3 x4 (i 1) := by
  funext i
  obtain ⟨p, q, rfl⟩ : ∃ (p : Fin 150000) (q : Fin 512), i = ix2 p q := ⟨i 0, i 1, eq_ix2 i⟩
  unfold val_main_v23 val_main_v22 val_main_v21 val_main_v20 val_main_v19 val_main_call0_v0 val_main_call0_cst
  refine (Cert.Layer.host_layer_at dot_S150000x384_S384x512_S150000x512_1_0_0_1_n_n rfl rfl rfl rfl rfl rfl rfl rfl
    (val_main_v18 x0 x1 x2) x3 x4 _ _ _ p q).trans ?_
  show _ = Cert.Layer.layer (Cert.Layer.joinRow (val_main_v10 x0 x2) x1 (val_main_v17 x0 x2) p) x3 x4 q
  congr 1
  funext k
  exact joined_at x0 x1 x2 p k

/-- net1's output at (p, q): both layers of the joined row p, at q. -/
private theorem out1_at (p : Fin 150000) (q : Fin 1152) :
    val_main_v28 x0 x1 x2 x3 x4 x5 x6 (ix2 p q)
      = Cert.Spec.net1row (Cert.Layer.joinRow (val_main_v10 x0 x2) x1 (val_main_v17 x0 x2) p) x3 x4 x5 x6 q := by
  unfold val_main_v28 val_main_v27 val_main_v26 val_main_v25 val_main_v24 val_main_call1_v0 val_main_call1_cst
  refine (Cert.Layer.host_layer_at dot_S150000x512_S512x1152_S150000x1152_1_0_0_1_n_n rfl rfl rfl rfl rfl rfl rfl rfl
    (val_main_v23 x0 x1 x2 x3 x4) x5 x6 _ _ _ p q).trans ?_
  rw [hidden1_eq]
  rfl

/-- The reference's new subject vectors. -/
theorem ref_subj : val_main_v29 x0 x1 x2 x3 x4 x5 x6
    = Cert.Spec.subj (val_main_v10 x0 x2) x1 (val_main_v17 x0 x2) x3 x4 x5 x6 := by
  funext i
  obtain ⟨p, q, rfl⟩ : ∃ (p : Fin 150000) (q : Fin 512), i = ix2 p q := ⟨i 0, i 1, eq_ix2 i⟩
  have e : idx_main_v29 (ix2 p q) = ix2 p (⟨q.val, by omega⟩ : Fin 1152) :=
    funext fun a => Fin.ext (by match a with | ⟨0, _⟩ => rfl | ⟨1, _⟩ => rfl)
  rw [val_main_v29_apply, e, out1_at]
  rfl

/-- The reference's new predicate vectors. -/
theorem ref_pred : val_main_v30 x0 x1 x2 x3 x4 x5 x6
    = Cert.Spec.pred (val_main_v10 x0 x2) x1 (val_main_v17 x0 x2) x3 x4 x5 x6 := by
  funext i
  obtain ⟨p, q, rfl⟩ : ∃ (p : Fin 150000) (q : Fin 128), i = ix2 p q := ⟨i 0, i 1, eq_ix2 i⟩
  have e : idx_main_v30 (ix2 p q) = ix2 p (⟨512 + q.val, by omega⟩ : Fin 1152) :=
    funext fun a => Fin.ext (by match a with | ⟨0, _⟩ => rfl | ⟨1, _⟩ => rfl)
  rw [val_main_v30_apply, e, out1_at]
  rfl

/-- The reference's new object vectors. -/
theorem ref_obj : val_main_v31 x0 x1 x2 x3 x4 x5 x6
    = Cert.Spec.obj (val_main_v10 x0 x2) x1 (val_main_v17 x0 x2) x3 x4 x5 x6 := by
  funext i
  obtain ⟨p, q, rfl⟩ : ∃ (p : Fin 150000) (q : Fin 512), i = ix2 p q := ⟨i 0, i 1, eq_ix2 i⟩
  have e : idx_main_v31 (ix2 p q) = ix2 p (⟨640 + q.val, by omega⟩ : Fin 1152) :=
    funext fun a => Fin.ext (by match a with | ⟨0, _⟩ => rfl | ⟨1, _⟩ => rfl)
  rw [val_main_v31_apply, e, out1_at]
  rfl

/-- net2's hidden array as a function: the first layer of each pooled row. -/
private theorem hidden2_eq : val_main_v56 x0 x1 x2 x3 x4 x5 x6 x7 x8
    = fun i => Cert.Layer.layer (fun k => val_main_v51 x0 x1 x2 x3 x4 x5 x6 (ix2 (i 0) k)) x7 x8 (i 1) := by
  funext i
  obtain ⟨p, q, rfl⟩ : ∃ (p : Fin 50000) (q : Fin 512), i = ix2 p q := ⟨i 0, i 1, eq_ix2 i⟩
  unfold val_main_v56 val_main_v55 val_main_v54 val_main_v53 val_main_v52 val_main_call2_v0 val_main_call2_cst
  exact Cert.Layer.host_layer_at dot_S50000x512_S512x512_S50000x512_1_0_0_1_n_n rfl rfl rfl rfl rfl rfl rfl rfl
    (val_main_v51 x0 x1 x2 x3 x4 x5 x6) x7 x8 _ _ _ p q

/-- The reference's new object features: net2 of its pooled array. -/
theorem ref_newThings : val_main_v61 x0 x1 x2 x3 x4 x5 x6 x7 x8 x9 x10
    = Cert.Spec.newThings (val_main_v51 x0 x1 x2 x3 x4 x5 x6) x7 x8 x9 x10 := by
  funext i
  obtain ⟨p, q, rfl⟩ : ∃ (p : Fin 50000) (q : Fin 128), i = ix2 p q := ⟨i 0, i 1, eq_ix2 i⟩
  unfold val_main_v61 val_main_v60 val_main_v59 val_main_v58 val_main_v57 val_main_call3_v0 val_main_call3_cst
  refine (Cert.Layer.host_layer_at dot_S50000x512_S512x128_S50000x128_1_0_0_1_n_n rfl rfl rfl rfl rfl rfl rfl rfl
    (val_main_v56 x0 x1 x2 x3 x4 x5 x6 x7 x8) x9 x10 _ _ _ p q).trans ?_
  rw [hidden2_eq]
  rfl

end Cert.ReferenceIdeal.RefSide

end
-- ==== Proof.lean ====
/-
  The certificate of the graph-convolution layer: a kernel program of two tiled dense networks (net1 over the edges,
  net2 over the objects) around host gathers and scatter-adds, against the plain reference, equal over the extended
  reals under the precondition that every float input is finite and every entry of the edge list is a row number of
  the feature table (0 ≤ e < 50000).

  Both programs gather the subjects' and the objects' feature rows, run net1 on each edge's joined row, pool the new
  subject and object vectors per object (sum, divided by the larger of 1 and the edge count) and run net2 on each
  pooled row. They differ in three ways, none of which changes a value: the kernel program's take replaces a row whose
  index is out of range by a fill word, and under the precondition no index is out of range; the kernel's networks
  change float format on the way into each matrix product, which is the identity on the extended reals; and they run
  tile by tile, every output row being written by exactly one tile. The sums are the same sums in the same order, so
  no law of the extended reals beyond congruence is used, and the finiteness of the float inputs is never opened.

  The three frames: the two kernel programs' are generated whole; the reference's is its generated run with the
  results dropped. The ideal pass rewrote nothing, so preserves is trivial.
-/
import proofs.«414812_j7894149890339_2_alg».proof.Defs
import proofs.«414812_j7894149890339_2_alg».proof.Proof.Gen.Kernel
import proofs.«414812_j7894149890339_2_alg».proof.Proof.Gen.Kernel.Skeleton
import proofs.«414812_j7894149890339_2_alg».proof.Proof.Gen.Kernel.Launch
import proofs.«414812_j7894149890339_2_alg».proof.Proof.Gen.Kernel.Points
import proofs.«414812_j7894149890339_2_alg».proof.Proof.Gen.Kernel.Frame
import proofs.«414812_j7894149890339_2_alg».proof.Proof.Gen.KernelIdeal
import proofs.«414812_j7894149890339_2_alg».proof.Proof.Gen.KernelIdeal.Skeleton
import proofs.«414812_j7894149890339_2_alg».proof.Proof.Gen.KernelIdeal.Launch
import proofs.«414812_j7894149890339_2_alg».proof.Proof.Gen.KernelIdeal.Points
import proofs.«414812_j7894149890339_2_alg».proof.Proof.Gen.KernelIdeal.Frame
import proofs.«414812_j7894149890339_2_alg».proof.Proof.Gen.ReferenceIdeal
import proofs.«414812_j7894149890339_2_alg».proof.Proof.Gen.ReferenceIdeal.Run
import proofs.«414812_j7894149890339_2_alg».proof.Proof.Gen.ReferenceIdeal.Read
import proofs.«414812_j7894149890339_2_alg».proof.Proof.Gen.Pre_finite_inputs
import proofs.«414812_j7894149890339_2_alg».proof.Proof.KRun
import proofs.«414812_j7894149890339_2_alg».proof.Proof.KValue
import proofs.«414812_j7894149890339_2_alg».proof.Proof.Cross
import proofs.«414812_j7894149890339_2_alg».proof.Proof.EdgeRange
import proofs.«414812_j7894149890339_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both programs end with the kernel program's two results: the reference's
    stages are the row-level functions of its gathers, its gathers are the kernel program's plain gathers, which under the
    edge list's range are its takes, and its pooled array is the kernel program's pooling. -/
theorem algebraic : Cert.algebraic_KernelIdeal_ReferenceIdeal := by
  intro m ρ m' ρ' hpre hagree
  refine ⟨fun c => Cert.KernelIdeal.Gen.W6 m ρ c (Proc.devRef .tc Cert.KernelIdeal.main_v27),
    fun c => Cert.KernelIdeal.Gen.W6 m ρ c (Proc.devRef .tc Cert.KernelIdeal.main_v6_1),
    Cert.KernelIdeal.Gen.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    have hr := Cert.EdgeRange.inRange_of_pre _ _ _ _ _ _ _ _ _ _ _ (hpre c)
    rw [Cert.ReferenceIdeal.Read.val_main_v61_eq, e0, e1, e2, e3, e4, e5, e6, e7, e8, e9, e10,
      Cert.ReferenceIdeal.RefSide.ref_newThings, Cert.Cross.pool_eq, Cert.ReferenceIdeal.RefSide.ref_subj,
      Cert.ReferenceIdeal.RefSide.ref_obj, ← Cert.Cross.rawTake0_eq, ← Cert.Cross.rawTake1_eq,
      ← Cert.EdgeRange.take_col0 _ _ hr, ← Cert.EdgeRange.take_col1 _ _ hr]
    exact (Cert.KernelIdeal.KValue.things_eq m ρ c).symm
  · obtain ⟨e0, e1, e2, e3, e4, e5, e6, e7, e8, e9, e10⟩ := hagree c
    have hr := Cert.EdgeRange.inRange_of_pre _ _ _ _ _ _ _ _ _ _ _ (hpre c)
    rw [Cert.ReferenceIdeal.Read.val_main_v30_eq, e0, e1, e2, e3, e4, e5, e6,
      Cert.ReferenceIdeal.RefSide.ref_pred, ← Cert.Cross.rawTake0_eq, ← Cert.Cross.rawTake1_eq,
      ← Cert.EdgeRange.take_col0 _ _ hr, ← Cert.EdgeRange.take_col1 _ _ hr]
    exact (Cert.KernelIdeal.KValue.pred_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
